-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64x64 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x64 .f32) (main_arg3 : FVec F S64 .f32) (main_arg4 : FVec F S64x64 .f32) (main_arg5 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S1x64 : Shape := ⟨2, ![1, 64]⟩
abbrev S10000x64 : Shape := ⟨2, ![10000, 64]⟩
abbrev S400x10000 : Shape := ⟨2, ![400, 10000]⟩
abbrev S400x64 : Shape := ⟨2, ![400, 64]⟩
abbrev S400 : Shape := ⟨1, ![400]⟩
abbrev S400x1 : Shape := ⟨2, ![400, 1]⟩

abbrev nBuf : Space → Nat
  | .hbm => 9
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x64, .f32⟩
  | .hbm, ⟨7, _⟩ => ⟨S1x64, .f32⟩
  | .hbm, ⟨8, _⟩ => ⟨S10000x64, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x64, .f32⟩
  | .local _ .vmem, ⟨4, _⟩ => ⟨S1x64, .f32⟩
  | .local _ .vmem, ⟨5, _⟩ => ⟨S64x64, .f32⟩
  | .local _ .vmem, ⟨6, _⟩ => ⟨S1x64, .f32⟩
  | .local _ .vmem, ⟨7, _⟩ => ⟨S400x64, .f32⟩
  | .local _ .vmem, ⟨8, _⟩ => ⟨S400x64, .f32⟩
  | .local _ .vmem, ⟨9, _⟩ => ⟨S10000x64, .f32⟩
  | .local _ .vmem, ⟨10, _⟩ => ⟨S10000x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c400_i32 : BitVec 32 := 400#32
  let v22 : BitVec 32 := Scalar.muli arg1 c400_i32
  let v23 : Index := Scalar.indexCast v22
  let c0_14 : Index := 0#32
  ![v23.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S400x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S400x10000_S400x10000_0_0 : ∀ a, (![0, 0] : Fin 2 → Nat) a + S400x10000.size a ≤ S400x10000.size a
  h_S400x10000 : 0 < S400x10000.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S64x64_S64x64_0_0 : ∀ a, (![0, 0] : Fin 2 → Nat) a + S64x64.size a ≤ S64x64.size a
  h_S64x64 : 0 < S64x64.numel
  h_S400x64 : 0 < S400x64.numel
  shapeCasts_S400x64_S400x64 : S400x64.ShapeCasts S400x64
  reduces_S400x64_S400 : S400x64.Reduces [1] S400
  shapeCasts_S400_S400x1 : S400.ShapeCasts S400x1
  broadcasts_S400x1_S400x64 : S400x1.Broadcasts S400x64
  inb_S400x64_S400x64_0_0 : ∀ a, (![0, 0] : Fin 2 → Nat) a + S400x64.size a ≤ S400x64.size a
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  dot_S400x64_S64x64_S400x64_1_0_0_1_n_n_wf : DotDims.WF S400x64 S64x64 S400x64 [1] [0] [0] [1] [] []
  hrank0 : 0 < grid0.rank
  k0_off1_inb : ∀ i : grid0.Coords, ∀ (k0_h2 : k0_cond2 i = 1#1), ∀ a, (k0_off1 i) a + S400x64.size a ≤ S10000x64.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x64.size a ≤ S10000x64.size a
  hwx0_6 : ∀ i : grid0.Coords, EltTy.bits .f32 = 32 ∨ (Rect.block (s := S10000x64) S400x64.size (cc0_transform_6 i) (hinb0_6 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x64_S400x64_1_0_0_1_n_n : DotDims S400x64 S64x64 S400x64 where
  lhsContracting := [1]
  rhsContracting := [0]
  lhsNonContracting := [0]
  rhsNonContracting := [1]
  lhsBatch := []
  rhsBatch := []
  wf := dot_S400x64_S64x64_S400x64_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S400x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S10000x64 : Shape := ⟨2, ![10000, 64]⟩
abbrev S1x64 : Shape := ⟨2, ![1, 64]⟩
abbrev S_ : Shape := ⟨0, ![]⟩
abbrev S10000 : Shape := ⟨1, ![10000]⟩
abbrev S10000x1 : Shape := ⟨2, ![10000, 1]⟩

abbrev nBuf : Space → Nat
  | .hbm => 34
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S10000x64, .f32⟩
  | .hbm, ⟨7, _⟩ => ⟨S10000x64, .f32⟩
  | .hbm, ⟨8, _⟩ => ⟨S1x64, .f32⟩
  | .hbm, ⟨9, _⟩ => ⟨S10000x64, .f32⟩
  | .hbm, ⟨10, _⟩ => ⟨S10000x64, .f32⟩
  | .hbm, ⟨11, _⟩ => ⟨S_, .f32⟩
  | .hbm, ⟨12, _⟩ => ⟨S10000x64, .f32⟩
  | .hbm, ⟨13, _⟩ => ⟨S10000x64, .f32⟩
  | .hbm, ⟨14, _⟩ => ⟨S10000x64, .f32⟩
  | .hbm, ⟨15, _⟩ => ⟨S10000x64, .f32⟩
  | .hbm, ⟨16, _⟩ => ⟨S1x64, .f32⟩
  | .hbm, ⟨17, _⟩ => ⟨S10000x64, .f32⟩
  | .hbm, ⟨18, _⟩ => ⟨S10000x64, .f32⟩
  | .hbm, ⟨19, _⟩ => ⟨S_, .f32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000x1, .f32⟩
  | .hbm, ⟨25, _⟩ => ⟨S10000x64, .f32⟩
  | .hbm, ⟨26, _⟩ => ⟨S10000x64, .f32⟩
  | .hbm, ⟨27, _⟩ => ⟨S10000x64, .f32⟩
  | .hbm, ⟨28, _⟩ => ⟨S_, .f32⟩
  | .hbm, ⟨29, _⟩ => ⟨S10000, .f32⟩
  | .hbm, ⟨30, _⟩ => ⟨S10000x1, .f32⟩
  | .hbm, ⟨31, _⟩ => ⟨S10000x1, .f32⟩
  | .hbm, ⟨32, _⟩ => ⟨S10000x64, .f32⟩
  | .hbm, ⟨33, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_cst : Ref sig .tc := ⟨.hbm, 19, rfl⟩
abbrev main_call1_v0 : Ref sig .tc := ⟨.hbm, 20, rfl⟩
abbrev main_call1_cst_0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_v6 : Ref sig .tc := ⟨.hbm, 27, rfl⟩
abbrev main_call1_cst_1 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_v11 : Ref sig .tc := ⟨.hbm, 33, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  reducesTo_S10000x64_S10000_d1 : S10000x64.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x64_S10000x64_1_0_0_1_n_n_wf : DotDims.WF S10000x64 S64x64 S10000x64 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

class Facts : Prop extends Facts₀ where

variable [Facts]
-- ==== Proof.TwoPassBits.Setup.lean ====
/-
  The two-pass kernel's grid is 2 × 25, row-major: positions 0 … 24 are the first pass (adjacency row-panel i against
  x · W1, rectified, times W2, stored as rows [400 i, 400 i + 400) of the second scratch), positions 25 … 49 the second
  pass (row-panel i against the whole second scratch, plus b2, log-softmax, stored as the output block). The first
  scratch x · W1 is computed at position 0 only. This module decides over the grid which of the body's three
  conditionals are taken where, where the output window is idle (the first pass) and where it is written back (the
  second pass), which rows the first pass stores, and names the memrefs the body is called with.
-/
import proofs.«168079_g83657372991743_cont_sun_c4_273_4_alg».proof.Proof.Gen.Kernel.Frame
import proofs.«168079_g83657372991743_cont_sun_c4_273_4_alg».proof.Proof.Gen.Kernel.Skeleton

set_option maxRecDepth 16384

noncomputable section

namespace Cert.Kernel.TwoPass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's three conditionals, from the grid position -/

/-- The first conditional's condition (both coordinates zero), as the body computes it. -/
abbrev atFirst (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at position 0 only. -/
theorem atFirst_iff : ∀ t : Fin cfg0.N, atFirst (grid0.coords t) ↔ t.val = 0 :=
  (by decide +kernel : ∀ t : Fin grid0.N, atFirst (grid0.coords t) ↔ t.val = 0)

/-- The second conditional's condition: the first pass. -/
abbrev inPass0 (i : grid0.Coords) : Prop := k0_cond2 i = 1#1
theorem inPass0_iff : ∀ t : Fin cfg0.N, inPass0 (grid0.coords t) ↔ t.val < 25 :=
  (by decide +kernel : ∀ t : Fin grid0.N, inPass0 (grid0.coords t) ↔ t.val < 25)

/-- The third conditional's condition: the second pass. -/
abbrev inPass1 (i : grid0.Coords) : Prop := k0_cond3 i = 1#1
theorem inPass1_iff : ∀ t : Fin cfg0.N, inPass1 (grid0.coords t) ↔ 25 ≤ t.val :=
  (by decide +kernel : ∀ t : Fin grid0.N, inPass1 (grid0.coords t) ↔ 25 ≤ t.val)

/-- The rows the first pass stores at position t: from row 400 t. -/
theorem off_eq : ∀ t : Fin cfg0.N, t.val < 25 → k0_off1 (grid0.coords t) = ![400 * t.val, 0] :=
  (by decide +kernel : ∀ t : Fin grid0.N, t.val < 25 → k0_off1 (grid0.coords t) = ![400 * t.val, 0])

/-! ## Where the windows are idle and where the output is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The output window is idle exactly in the first pass … -/
theorem idle6_iff : ∀ t : Fin cfg0.N, cfg0.idle 6 (grid0.coords t) = true ↔ t.val < 25 :=
  (by decide +kernel : ∀ t : Fin grid0.N, cfg0.idle 6 (grid0.coords t) = true ↔ t.val < 25)
/-- … and written back exactly at the positions of the second pass: its block index is 0 through the first pass and
    at position 25, then moves by one at every position. -/
theorem flush6_iff : ∀ t : Fin cfg0.N, (cfg0.win 6).flush t = true ↔ 25 ≤ t.val :=
  (by decide +kernel : ∀ t : Fin grid0.N, win0_6.flush t = true ↔ 25 ≤ t.val)
/-- The block the output window holds at a position of the second pass: block t − 25. -/
theorem index6 : ∀ t : Fin cfg0.N, 25 ≤ t.val → win0_6.index t = ![t.val - 25, 0] :=
  (by decide +kernel : ∀ t : Fin grid0.N, 25 ≤ t.val → win0_6.index t = ![t.val - 25, 0])
/-- The adjacency row-panel a position reads: panel t mod 25. -/
theorem index1 : ∀ t : Fin cfg0.N, win0_1.index t = ![t.val % 25, 0] :=
  (by decide +kernel : ∀ t : Fin grid0.N, win0_1.index t = ![t.val % 25, 0])

/-! ## The memrefs the body is called with -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S400x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S400x64 .f32 := win0_6.stage (cfg0.slots t 6)
abbrev hs6 (t : Fin cfg0.N) : (ms6 t).IsWhole := hstage0_6 ((cfg0.slots t 6).cast nbuf0_6)
/-- The two scratch operands, whole buffers of the kernel's own: x · W1, and the first pass's result. -/
abbrev scr0 : Memref sig .tc .vmem S10000x64 .f32 := Memref.whole cc0_scratch0
abbrev scr1 : Memref sig .tc .vmem S10000x64 .f32 := Memref.whole cc0_scratch1

/-- What the launch hands the region besides the windows: both scratch buffers at some contents and the generator
    register at some state. -/
theorem PhiA_eq (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

end Cert.Kernel.TwoPass

end
-- ==== Proof.TwoPassBits.RunSoftmax.lean ====
/-
  The body at a position of the second pass (only the third conditional taken): it loads the adjacency row-panel, the
  whole second scratch and the second bias, forms the scores, takes the row-wise log-softmax and stores the 400 × 64
  result over the whole output block. Stated on any whole memrefs: the inputs at their contents, both scratch
  buffers at given contents, the output block at anything; afterwards everything as it was but the output
  block, which holds the one store's piece written over what it held.
-/
import proofs.«168079_g83657372991743_cont_sun_c4_273_4_alg».proof.Proof.TwoPassBits.Setup

set_option maxRecDepth 16384

noncomputable section

namespace Cert.Kernel.TwoPass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The second-pass run: the list of pieces the output block ends with (found by the run), and the triple. -/
noncomputable def runSoftmax (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x64 .f32) (harg9 : arg9.IsWhole) (arg10 : Memref sig .tc .vmem S10000x64 .f32) (harg10 : arg10.IsWhole) (hc0 : ¬atFirst i) (hc1 : ¬inPass0 i) (hc2 : inPass1 i)
    (x0 : Vec F S10000x128 .f32) (x1 : Vec F S400x10000 .f32) (x2 : Vec F S128x64 .f32) (x3 : Vec F S1x64 .f32) (x4 : Vec F S64x64 .f32) (x5 : Vec F S1x64 .f32) (xs0 xs1 : Vec F S10000x64 .f32) :
    { LO : List (View.Piece (Elt F) S400x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LO) ∗ owns (c : Thread nD τ) arg9 fullShare xs0 ∗ owns (c : Thread nD τ) arg10 fullShare xs1) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K } := by
  refine ⟨?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]
    · iexists _; isplitr; · ipureintro; exact harg9.read_unread _
      iexact HS0
    iexists _; isplitr; · ipureintro; exact harg10.read_unread _
    iexact HS1

end Cert.Kernel.TwoPass

end
-- ==== Proof.TwoPassBits.RunAggregate.lean ====
/-
  The body at a position of the first pass other than position 0 (only the second conditional taken): it loads the
  adjacency row-panel, the whole first scratch (x · W1, left there by position 0), the first bias and W2, forms
  max (panel · scratch + b1, 0) · W2 and stores the 400 × 64 result as rows [400 i, 400 i + 400) of the second
  scratch. Stated on any whole memrefs: the inputs and the first scratch at their contents, the second scratch at given
  contents, which the run keeps outside the stored rows: afterwards it holds the one store's piece written over them.
-/
import proofs.«168079_g83657372991743_cont_sun_c4_273_4_alg».proof.Proof.TwoPassBits.Setup

set_option maxRecDepth 16384

noncomputable section

namespace Cert.Kernel.TwoPass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The first-pass run away from position 0: the pieces the second scratch ends with (found by the run), and the triple. -/
noncomputable def runAggregate (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x64 .f32) (harg9 : arg9.IsWhole) (arg10 : Memref sig .tc .vmem S10000x64 .f32) (harg10 : arg10.IsWhole) (hc0 : ¬atFirst i) (hc1 : inPass0 i) (hc2 : ¬inPass1 i)
    (x0 : Vec F S10000x128 .f32) (x1 : Vec F S400x10000 .f32) (x2 : Vec F S128x64 .f32) (x3 : Vec F S1x64 .f32) (x4 : Vec F S64x64 .f32) (x5 : Vec F S1x64 .f32) (x6 : Vec F S400x64 .f32) (xs0 xs1 : Vec F S10000x64 .f32) :
    { LS1 : List (View.Piece (Elt F) S10000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare (arg10.view.read (Elt F) (arg10.view.writes (Elt F) (harg10.unread xs1) LS1))) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K } := by
  refine ⟨?_, fun E K => ?run⟩
  case run =>
    simp only [cc0__gcn_body_eq_skeleton]; unfold cc0__gcn_body_skel
    unfold owns
    iintro ⟨⟨%f0, %hf0, H0⟩, ⟨%f1', %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs1; obtain rfl := harg9.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; · ipureintro; exact harg9.read_unread _
      iexact HS0
    iexists _; isplitr; swap; · iexact HS1
    ipureintro; rfl

end Cert.Kernel.TwoPass

end
-- ==== Proof.TwoPassBits.RunFirst.lean ====
/-
  The body at position 0 (the first and second conditionals taken): it forms x · W1 and stores it over the whole
  first scratch, then does the first pass's step on it: loads the adjacency row-panel, the first scratch just
  written, the first bias and W2, and stores max (panel · (x · W1) + b1, 0) · W2 as rows [0, 400) of the second
  scratch. Stated on any whole memrefs: the inputs at their contents, the first scratch at anything, the output block at
  contents it keeps, the second scratch at given contents, kept outside the stored rows.
-/
import proofs.«168079_g83657372991743_cont_sun_c4_273_4_alg».proof.Proof.TwoPassBits.Setup

set_option maxRecDepth 16384

noncomputable section

namespace Cert.Kernel.TwoPass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The run at position 0: the pieces the first and the second scratch end with (found by the run), and the triple. -/
noncomputable def runFirst (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x64 .f32) (harg9 : arg9.IsWhole) (arg10 : Memref sig .tc .vmem S10000x64 .f32) (harg10 : arg10.IsWhole) (hc0 : atFirst i) (hc1 : inPass0 i) (hc2 : ¬inPass1 i)
    (x0 : Vec F S10000x128 .f32) (x1 : Vec F S400x10000 .f32) (x2 : Vec F S128x64 .f32) (x3 : Vec F S1x64 .f32) (x4 : Vec F S64x64 .f32) (x5 : Vec F S1x64 .f32) (x6 : Vec F S400x64 .f32) (xs1 : Vec F S10000x64 .f32) :
    { L : List (View.Piece (Elt F) S10000x64 .f32) × List (View.Piece (Elt F) S10000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L.1) ∗ owns (c : Thread nD τ) arg10 fullShare (arg10.view.read (Elt F) (arg10.view.writes (Elt F) (harg10.unread xs1) L.2))) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K } := by
  refine ⟨(?_, ?_), fun E K => ?run⟩
  case run =>
    simp only [cc0__gcn_body_eq_skeleton]; unfold cc0__gcn_body_skel
    unfold owns
    iintro ⟨⟨%f0, %hf0, H0⟩, ⟨%f1', %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; isplitr; swap; · iexact HS1
    ipureintro; rfl

end Cert.Kernel.TwoPass

end
-- ==== Proof.TwoPassBits.Data.lean ====
/-
  What the two-pass kernel's buffers hold, position by position, as pure terms of the region-entry arrays (generic in
  the float instance: each is one of the body's three stored values applied to the blocks the position reads).

    firstScratch        = the first stored value at position 0's blocks of x and W1           (x · W1)
    aggBlock t          = the second stored value at position t's adjacency row-panel, firstScratch, b1, W2
    secondScratch       = row 400 t + p, column j  ↦  aggBlock t (p, j)                         (t < 25)
    outBlock t          = the third stored value at position t's row-panel, secondScratch, b2

  The invariant between positions: after position n ≥ 0 the first scratch holds firstScratch and the second scratch
  agrees with secondScratch on its rows below 400 (n + 1) (all of it from position 24 on). The output window's block
  after a position of the second pass is outBlock; in the first pass the window is idle and its buffer is left as found.
-/
import proofs.«168079_g83657372991743_cont_sun_c4_273_4_alg».proof.Proof.TwoPassBits.RunSoftmax
import proofs.«168079_g83657372991743_cont_sun_c4_273_4_alg».proof.Proof.TwoPassBits.RunAggregate
import proofs.«168079_g83657372991743_cont_sun_c4_273_4_alg».proof.Proof.TwoPassBits.RunFirst
import Idealize.ShloMosaic.Lib.ValueIdx

set_option maxRecDepth 16384

noncomputable section

namespace Cert.Kernel.TwoPass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The blocks a position reads, at their literal types -/

abbrev blk0 (c : Dev nD) (t : Fin cfg0.N) : Vec F S10000x128 .f32 := iblk m c 0 t
abbrev blk1 (c : Dev nD) (t : Fin cfg0.N) : Vec F S400x10000 .f32 := iblk m c 1 t
abbrev blk2 (c : Dev nD) (t : Fin cfg0.N) : Vec F S128x64 .f32 := iblk m c 2 t
abbrev blk3 (c : Dev nD) (t : Fin cfg0.N) : Vec F S1x64 .f32 := iblk m c 3 t
abbrev blk4 (c : Dev nD) (t : Fin cfg0.N) : Vec F S64x64 .f32 := iblk m c 4 t
abbrev blk5 (c : Dev nD) (t : Fin cfg0.N) : Vec F S1x64 .f32 := iblk m c 5 t

theorem N_eq : cfg0.N = 50 := N_0

/-- Position 0. -/
def t0 : Fin cfg0.N := ⟨0, by rw [N_eq]; omega⟩

/-! ## The stored values -/

/-- The first scratch after position 0: x · W1 as the body forms it. -/
def firstScratch (c : Dev nD) : Vec F S10000x64 .f32 := k0_pay1 (blk0 m c t0) (blk2 m c t0)

/-- The 400 rows the first pass stores at position t. -/
def aggBlock (c : Dev nD) (t : Fin cfg0.N) : Vec F S400x64 .f32 :=
  k0_pay2 (blk1 m c t) (firstScratch m c) (blk3 m c t) (blk4 m c t)

/-- The second scratch once the first pass is over: row r is row r mod 400 of what position r / 400 stored. -/
def secondScratch (c : Dev nD) : Vec F S10000x64 .f32 := fun y =>
  aggBlock m c ⟨(y 0).val / 400, by have h : (y 0).val < 10000 := (y 0).isLt; rw [N_eq]; omega⟩
    (ValueIdx.ix2 (⟨(y 0).val % 400, Nat.mod_lt _ (by norm_num)⟩ : Fin 400) (y 1))

/-- The output block a position of the second pass stores. -/
def outBlock (c : Dev nD) (t : Fin cfg0.N) : Vec F S400x64 .f32 :=
  k0_pay3 (blk1 m c t) (secondScratch m c) (blk5 m c t)

/-- The second scratch holds the first pass's result on its rows below 400 n. -/
def Filled (c : Dev nD) (n : ℕ) (d : Vec F S10000x64 .f32) : Prop :=
  ∀ y : S10000x64.Idx, (y 0).val < 400 * n → d y = secondScratch m c y

theorem Filled.eq_of_le {c : Dev nD} {n : ℕ} {d : Vec F S10000x64 .f32} (h : Filled m c n d) (hn : 25 ≤ n) : d = secondScratch m c :=
  funext fun y => h y (by have h : (y 0).val < 10000 := (y 0).isLt; omega)

theorem filled_secondScratch (c : Dev nD) (n : ℕ) : Filled m c n (secondScratch m c) := fun _ _ => rfl

/-! ## The invariant between positions -/

/-- Before position 0 both scratch buffers hold anything; after position n the first holds x · W1 and the second the
    first pass's rows below 400 (n + 1). -/
def PhiS (c : Dev nD) : (n : ℕ) → n ≤ cfg0.N → sProp 𝕄
  | 0, _ => Pipeline.ΦA spec0 c
  | n + 1, _ => iprop(iprop(owns (c : Thread nD τ) scr0 fullShare (firstScratch m c) ∗ (∃ d, ⌜Filled m c (n + 1) d⌝ ∗ owns (c : Thread nD τ) scr1 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scr0 fullShare (firstScratch m c) ∗ (∃ d, ⌜Filled m c (n + 1) d⌝ ∗ owns (c : Thread nD τ) scr1 fullShare d)) ∗ (∃ r, prngReg c r)) := rfl

theorem PhiS_pos (c : Dev nD) (n : ℕ) (h : n ≤ cfg0.N) (hz : n ≠ 0) :
    PhiS m c n h = iprop(iprop(owns (c : Thread nD τ) scr0 fullShare (firstScratch m c) ∗ (∃ d, ⌜Filled m c n d⌝ ∗ owns (c : Thread nD τ) scr1 fullShare d)) ∗ (∃ r, prngReg c r)) := by
  cases n with
  | zero => exact absurd rfl hz
  | succ n => rfl

/-! ## The pipeline's proof data -/

/-- The arrays as the region finds them; after the body each input's buffer at its block, the output's at outBlock
    (read only at the positions of the second pass: in the first the window is idle); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlock m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outBlock m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

end Cert.Kernel.TwoPass

end
-- ==== Proof.TwoPassBits.Pieces.lean ====
/-
  The pieces each run leaves, in closed form: a load through a whole block of a buffer at contents X reads X, and a
  load of the first scratch right after its one whole-buffer store reads the stored value. So the second pass leaves
  ONE piece over the whole output block, the third stored value of (row-panel, second scratch, b2); the first pass
  leaves ONE piece of 400 rows of the second scratch, the second stored value of (row-panel, first scratch, b1, W2);
  and position 0 first leaves ONE piece over the whole first scratch, the first stored value of (x, W1).
-/
import proofs.«168079_g83657372991743_cont_sun_c4_273_4_alg».proof.Proof.TwoPassBits.RunSoftmax
import proofs.«168079_g83657372991743_cont_sun_c4_273_4_alg».proof.Proof.TwoPassBits.RunAggregate
import proofs.«168079_g83657372991743_cont_sun_c4_273_4_alg».proof.Proof.TwoPassBits.RunFirst
import Idealize.ShloMosaic.Lib.Pipeline.Value

set_option maxRecDepth 16384

noncomputable section

namespace Cert.Kernel.TwoPass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem zeros2 : (![0, 0] : Fin 2 → ℕ) = fun _ => 0 := by
  funext a; match a with | ⟨0, _⟩ => rfl | ⟨1, _⟩ => rfl

theorem runSoftmax_pieces (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x64 .f32) (harg9 : arg9.IsWhole) (arg10 : Memref sig .tc .vmem S10000x64 .f32) (harg10 : arg10.IsWhole) (hc0 : ¬atFirst i) (hc1 : ¬inPass0 i) (hc2 : inPass1 i)
    (x0 : Vec F S10000x128 .f32) (x1 : Vec F S400x10000 .f32) (x2 : Vec F S128x64 .f32) (x3 : Vec F S1x64 .f32) (x4 : Vec F S64x64 .f32) (x5 : Vec F S1x64 .f32) (xs0 xs1 : Vec F S10000x64 .f32) :
    (runSoftmax c i arg2 harg2 arg3 harg3 arg4 harg4 arg5 harg5 arg6 harg6 arg7 harg7 arg8 harg8 arg9 harg9 arg10 harg10 hc0 hc1 hc2 x0 x1 x2 x3 x4 x5 xs0 xs1).1
      = [(⟨Rect.unit (s := S400x64) ![0, 0] S400x64.size inb_S400x64_S400x64_0_0, k0_pay3 x1 xs1 x5⟩ : View.Piece (Elt F) S400x64 .f32)] := by
  unfold runSoftmax
  dsimp only
  sl_unfold_words
  simp only [View.readAt_eq_ld, harg3.read_unread, harg10.read_unread, harg7.read_unread,
    View.ld_unit_zero (S := S400x10000) zeros2, View.ld_unit_zero (S := S10000x64) zeros2, View.ld_unit_zero (S := S1x64) zeros2]

theorem runAggregate_pieces (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x64 .f32) (harg9 : arg9.IsWhole) (arg10 : Memref sig .tc .vmem S10000x64 .f32) (harg10 : arg10.IsWhole) (hc0 : ¬atFirst i) (hc1 : inPass0 i) (hc2 : ¬inPass1 i)
    (x0 : Vec F S10000x128 .f32) (x1 : Vec F S400x10000 .f32) (x2 : Vec F S128x64 .f32) (x3 : Vec F S1x64 .f32) (x4 : Vec F S64x64 .f32) (x5 : Vec F S1x64 .f32) (x6 : Vec F S400x64 .f32) (xs0 xs1 : Vec F S10000x64 .f32) :
    (runAggregate c i arg2 harg2 arg3 harg3 arg4 harg4 arg5 harg5 arg6 harg6 arg7 harg7 arg8 harg8 arg9 harg9 arg10 harg10 hc0 hc1 hc2 x0 x1 x2 x3 x4 x5 x6 xs0 xs1).1
      = [(⟨Rect.unit (s := S10000x64) (k0_off1 i) S400x64.size (k0_off1_inb i hc1), k0_pay2 x1 xs0 x3 x4⟩ : View.Piece (Elt F) S10000x64 .f32)] := by
  unfold runAggregate
  dsimp only
  sl_unfold_words
  simp only [View.readAt_eq_ld, harg3.read_unread, harg9.read_unread, harg5.read_unread, harg6.read_unread,
    View.ld_unit_zero (S := S400x10000) zeros2, View.ld_unit_zero (S := S10000x64) zeros2, View.ld_unit_zero (S := S1x64) zeros2,
    View.ld_unit_zero (S := S64x64) zeros2]

theorem runFirst_pieces (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x64 .f32) (harg9 : arg9.IsWhole) (arg10 : Memref sig .tc .vmem S10000x64 .f32) (harg10 : arg10.IsWhole) (hc0 : atFirst i) (hc1 : inPass0 i) (hc2 : ¬inPass1 i)
    (x0 : Vec F S10000x128 .f32) (x1 : Vec F S400x10000 .f32) (x2 : Vec F S128x64 .f32) (x3 : Vec F S1x64 .f32) (x4 : Vec F S64x64 .f32) (x5 : Vec F S1x64 .f32) (x6 : Vec F S400x64 .f32) (xs1 : Vec F S10000x64 .f32) :
    (runFirst c i arg2 harg2 arg3 harg3 arg4 harg4 arg5 harg5 arg6 harg6 arg7 harg7 arg8 harg8 arg9 harg9 arg10 harg10 hc0 hc1 hc2 x0 x1 x2 x3 x4 x5 x6 xs1).1
      = ([(⟨Rect.unit (s := S10000x64) ![0, 0] S10000x64.size inb_S10000x64_S10000x64_0_0, k0_pay1 x0 x2⟩ : View.Piece (Elt F) S10000x64 .f32)],
         [(⟨Rect.unit (s := S10000x64) (k0_off1 i) S400x64.size (k0_off1_inb i hc1), k0_pay2 x1 (k0_pay1 x0 x2) x3 x4⟩ : View.Piece (Elt F) S10000x64 .f32)]) := by
  unfold runFirst
  dsimp only
  sl_unfold_words
  simp only [View.readAt_eq_ld, harg2.read_unread, harg3.read_unread, harg4.read_unread, harg5.read_unread, harg6.read_unread,
    View.readCov_unit_zero (S := S10000x64) _ zeros2,
    View.ld_unit_zero (S := S10000x128) zeros2, View.ld_unit_zero (S := S128x64) zeros2,
    View.ld_unit_zero (S := S400x10000) zeros2, View.ld_unit_zero (S := S10000x64) zeros2, View.ld_unit_zero (S := S1x64) zeros2,
    View.ld_unit_zero (S := S64x64) zeros2]

end Cert.Kernel.TwoPass

end
-- ==== Proof.TwoPassBits.Body.lean ====
/-
  The body obligation of the two-pass kernel at every position, and the launch.

  Position 0: both scratch buffers arrive at anything; the first leaves holding x · W1, the second with its rows
  [0, 400) written. Positions 1 … 24: the first scratch is read, rows [400 t, 400 t + 400) of the second are written
  over what it held, so its rows below 400 (t + 1) hold the first pass's result. Through the first pass the output
  window is idle: its buffer goes back as it came. Positions 25 … 49: the second scratch is complete and only read;
  the output block is stored whole. From the body obligation the library's frame run gives every windowed array
  after the run as the proof data computes it, and the other buffers unchanged.
-/
import proofs.«168079_g83657372991743_cont_sun_c4_273_4_alg».proof.Proof.TwoPassBits.Data
import proofs.«168079_g83657372991743_cont_sun_c4_273_4_alg».proof.Proof.TwoPassBits.Pieces
import Idealize.ShloMosaic.Lib.WritesUnit

set_option maxRecDepth 16384

noncomputable section

namespace Cert.Kernel.TwoPass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Reading the pieces back -/

/-- One store through the whole shape leaves its payload, whatever the buffer held. -/
theorem read_whole_piece {sg : RefSig} {κ : Kind} {sp : Space} {S : Shape} {e : EltTy} (v : View sg κ sp S e) (f : v.ty.Contents (Elt F))
    {off : Fin S.rank → ℕ} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩), View.canon_unit_zero h]

/-- The first pass's step on the second scratch: 400 rows from row 400 n written with position n's rows over
    contents that hold the result below row 400 n give contents that hold it below row 400 (n + 1). -/
theorem filled_step (c : Dev nD) (n : ℕ) (d1 : Vec F S10000x64 .f32) (hd : Filled m c n d1) (tn : Fin cfg0.N) (htn : tn.val = n) (hn : n < 25)
    (off : Fin 2 → ℕ) (inb : ∀ a : Fin 2, off a + S400x64.size a ≤ S10000x64.size a) (hoff : off = ![400 * n, 0])
    (hw : (Memref.whole cc0_scratch1 : Memref sig .tc .vmem S10000x64 .f32).IsWhole) :
    Filled m c (n + 1) (scr1.view.read (Elt F) (scr1.view.writes (Elt F) (hw.unread d1)
      [(⟨Rect.unit (s := S10000x64) off S400x64.size inb, aggBlock m c tn⟩ : View.Piece (Elt F) S10000x64 .f32)])) := by
  intro y hy
  have hy0 : (y 0).val < 10000 := (y 0).isLt
  by_cases h : 400 * n ≤ (y 0).val
  · rw [View.read_writes_cons_rows_of_mem scr1.view _ inb (aggBlock m c tn) [] y
      (ValueIdx.ix2 (⟨(y 0).val % 400, Nat.mod_lt _ (by norm_num)⟩ : Fin 400) (y 1)) hoff
      (by show (y 0).val = 400 * n + (y 0).val % 400; omega) rfl]
    have e : (⟨(y 0).val / 400, by rw [N_eq]; omega⟩ : Fin cfg0.N) = tn := Fin.ext (by show (y 0).val / 400 = tn.val; omega)
    unfold secondScratch
    rw [e]
  · rw [View.read_writes_cons_rows_of_not_mem scr1.view _ inb (aggBlock m c tn) [] y hoff (W := 400) rfl (Or.inl (by omega)),
      View.writes_nil, hw.read_unread]
    exact hd y (by omega)

/-! ## The body obligation -/

/-- What the body is called with at position t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- A position of the second pass. -/
theorem sound_softmax (c : Dev nD) (t : Fin cfg0.N) (h2 : 25 ≤ t.val) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl, PhiS_succ]
  have hN : t.val < 50 := lt_of_lt_of_eq t.isLt N_eq
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 2 t = owns (c : Thread nD τ) (ms2 t) fullShare ((dats m 0 c).after 2 t) from by
    unfold Dat.leavesExact; rw [live2 t], after_2]
  rw [show (dats m 0 c).leavesExact 3 t = owns (c : Thread nD τ) (ms3 t) fullShare ((dats m 0 c).after 3 t) from by
    unfold Dat.leavesExact; rw [live3 t], after_3]
  rw [show (dats m 0 c).leavesExact 4 t = owns (c : Thread nD τ) (ms4 t) fullShare ((dats m 0 c).after 4 t) from by
    unfold Dat.leavesExact; rw [live4 t], after_4]
  rw [show (dats m 0 c).leavesExact 5 t = owns (c : Thread nD τ) (ms5 t) fullShare ((dats m 0 c).after 5 t) from by
    unfold Dat.leavesExact; rw [live5 t], after_5]
  have hz : t.val ≠ 0 := by omega
  have h1 : ¬ t.val < 25 := by omega
  rw [show (dats m 0 c).leavesExact 6 t = owns (c : Thread nD τ) (ms6 t) fullShare ((dats m 0 c).after 6 t) from by
    unfold Dat.leavesExact
    rw [show cfg0.idle 6 (grid0.coords t) = false from Bool.eq_false_iff.mpr (fun h => h1 ((idle6_iff t).mp h))], after_6]
  rw [PhiS_castSucc m c t, PhiS_pos m c _ _ hz]
  iintro ⟨⟨⟨HS0, ⟨%d1, %hd1, HS1⟩⟩, Hg⟩, Ho, ⟨%e0, H0⟩, ⟨%e1, H1⟩, ⟨%e2, H2⟩, ⟨%e3, H3⟩, ⟨%e4, H4⟩, ⟨%e5, H5⟩, ⟨%e6, H6⟩⟩
  obtain rfl := hd1.eq_of_le m h2
  iapply ((runSoftmax c (grid0.coords t) _ _ _ _ _ _ _ _ _ _ _ _ _ _ _ _ _ _ (fun h => hz ((atFirst_iff t).mp h)) (fun h => h1 ((inPass0_iff t).mp h)) ((inPass1_iff t).mpr h2) (iblk m c 0 t) (iblk m c 1 t) (iblk m c 2 t) (iblk m c 3 t) (iblk m c 4 t) (iblk m c 5 t) (firstScratch m c) (secondScratch m c)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, ⟨%f6, H6⟩, HS0, HS1⟩
  isplitl [HS0 HS1 Hg]
  · isplitl [HS0 HS1]
    · isplitl [HS0]; · iexact HS0
      iexists _; isplitr; · ipureintro; exact filled_secondScratch m c _
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr; swap; · iexact H6
  ipureintro
  rw [runSoftmax_pieces]
  exact read_whole_piece _ _ zeros2 _ _

set_option maxHeartbeats 4000000 in
/-- A position of the first pass other than position 0. -/
theorem sound_aggregate (c : Dev nD) (t : Fin cfg0.N) (hz : t.val ≠ 0) (h1 : t.val < 25) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl, PhiS_succ]
  have hN : t.val < 50 := lt_of_lt_of_eq t.isLt N_eq
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 2 t = owns (c : Thread nD τ) (ms2 t) fullShare ((dats m 0 c).after 2 t) from by
    unfold Dat.leavesExact; rw [live2 t], after_2]
  rw [show (dats m 0 c).leavesExact 3 t = owns (c : Thread nD τ) (ms3 t) fullShare ((dats m 0 c).after 3 t) from by
    unfold Dat.leavesExact; rw [live3 t], after_3]
  rw [show (dats m 0 c).leavesExact 4 t = owns (c : Thread nD τ) (ms4 t) fullShare ((dats m 0 c).after 4 t) from by
    unfold Dat.leavesExact; rw [live4 t], after_4]
  rw [show (dats m 0 c).leavesExact 5 t = owns (c : Thread nD τ) (ms5 t) fullShare ((dats m 0 c).after 5 t) from by
    unfold Dat.leavesExact; rw [live5 t], after_5]
  have h2 : ¬ 25 ≤ t.val := by omega
  rw [(dats m 0 c).leavesExact_idle 6 t ((idle6_iff t).mpr h1) (Bool.eq_false_iff.mpr (fun h => h2 ((flush6_iff t).mp h)))]
  rw [PhiS_castSucc m c t, PhiS_pos m c _ _ hz]
  iintro ⟨⟨⟨HS0, ⟨%d1, %hd1, HS1⟩⟩, Hg⟩, Ho, ⟨%e0, H0⟩, ⟨%e1, H1⟩, ⟨%e2, H2⟩, ⟨%e3, H3⟩, ⟨%e4, H4⟩, ⟨%e5, H5⟩, ⟨%e6, H6⟩⟩
  iapply ((runAggregate c (grid0.coords t) _ _ _ _ _ _ _ _ _ _ _ _ _ _ _ _ _ _ (fun h => hz ((atFirst_iff t).mp h)) ((inPass0_iff t).mpr h1) (fun h => h2 ((inPass1_iff t).mp h)) (iblk m c 0 t) (iblk m c 1 t) (iblk m c 2 t) (iblk m c 3 t) (iblk m c 4 t) (iblk m c 5 t) ((dats m 0 c).before 6 t e6) (firstScratch m c) d1).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]; · iexact HS0
      iexists _; isplitr; swap; · iexact HS1
      ipureintro
      rw [runAggregate_pieces]
      exact filled_step m c t.val d1 hd1 t rfl h1 _ _ (off_eq t h1) _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 4000000 in
/-- Position 0. -/
theorem sound_first (c : Dev nD) :
    bodyPre m c t0 ⊢ wp frame (wpE (defs₀ (F := F)) Variants.none c none) Set.univ (bodyAt0 t0) (fun _ => bodyPost m c t0) := by
  have hz : (t0 : Fin cfg0.N).val = 0 := rfl
  have h1 : (t0 : Fin cfg0.N).val < 25 := by rw [hz]; omega
  have h2 : ¬ 25 ≤ (t0 : Fin cfg0.N).val := by omega
  generalize ht : (t0 : Fin cfg0.N) = t at hz h1 h2 ⊢
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl, PhiS_succ]
  have hN : t.val < 50 := lt_of_lt_of_eq t.isLt N_eq
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 2 t = owns (c : Thread nD τ) (ms2 t) fullShare ((dats m 0 c).after 2 t) from by
    unfold Dat.leavesExact; rw [live2 t], after_2]
  rw [show (dats m 0 c).leavesExact 3 t = owns (c : Thread nD τ) (ms3 t) fullShare ((dats m 0 c).after 3 t) from by
    unfold Dat.leavesExact; rw [live3 t], after_3]
  rw [show (dats m 0 c).leavesExact 4 t = owns (c : Thread nD τ) (ms4 t) fullShare ((dats m 0 c).after 4 t) from by
    unfold Dat.leavesExact; rw [live4 t], after_4]
  rw [show (dats m 0 c).leavesExact 5 t = owns (c : Thread nD τ) (ms5 t) fullShare ((dats m 0 c).after 5 t) from by
    unfold Dat.leavesExact; rw [live5 t], after_5]
  rw [(dats m 0 c).leavesExact_idle 6 t ((idle6_iff t).mpr h1) (Bool.eq_false_iff.mpr (fun h => h2 ((flush6_iff t).mp h)))]
  rw [PhiS_castSucc m c t, PhiS_zero m c _ _ hz, PhiA_eq]
  iintro ⟨⟨⟨⟨%d0, HS0⟩, ⟨%d1, HS1⟩⟩, Hg⟩, Ho, ⟨%e0, H0⟩, ⟨%e1, H1⟩, ⟨%e2, H2⟩, ⟨%e3, H3⟩, ⟨%e4, H4⟩, ⟨%e5, H5⟩, ⟨%e6, H6⟩⟩
  iapply ((runFirst c (grid0.coords t) _ _ _ _ _ _ _ _ _ _ _ _ _ _ _ _ _ _ ((atFirst_iff t).mpr hz) ((inPass0_iff t).mpr h1) (fun h => h2 ((inPass1_iff t).mp h)) (iblk m c 0 t) (iblk m c 1 t) (iblk m c 2 t) (iblk m c 3 t) (iblk m c 4 t) (iblk m c 5 t) ((dats m 0 c).before 6 t e6) d1).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexists _; iexact HS0
  isplitl [HS1]; · iexact HS1
  iintro ⟨H0, H1, H2, H3, H4, H5, H6, ⟨%fs0, HS0⟩, HS1⟩
  isplitl [HS0 HS1 Hg]
  · isplitl [HS0 HS1]
    · isplitl [HS0]
      · unfold owns; iexists _; isplitr; swap; · iexact HS0
        ipureintro
        rw [runFirst_pieces]
        subst ht
        exact read_whole_piece _ _ zeros2 _ _
      iexists _; isplitr; swap; · iexact HS1
      ipureintro
      rw [runFirst_pieces]
      subst ht
      exact filled_step m c 0 d1 (fun y hy => absurd hy (by omega)) t0 rfl (by omega) _ _ (off_eq t0 (by rw [show (t0 : Fin cfg0.N).val = 0 from rfl]; omega)) _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

/-- The body at any position. -/
theorem sound_body (c : Dev nD) (t : Fin cfg0.N) :
    bodyPre m c t ⊢ wp frame (wpE (defs₀ (F := F)) Variants.none c none) Set.univ (bodyAt0 t) (fun _ => bodyPost m c t) := by
  by_cases h1 : t.val < 25
  · by_cases hz : t.val = 0
    · obtain rfl : t = t0 := Fin.ext hz
      exact sound_first m c
    · exact sound_aggregate m c t hz h1
  · exact sound_softmax m c t (by omega)

/-- The library's body obligation, at every position. -/
theorem body_obligation (c : Dev nD) : BodyObligation (dats (F := F) m 0 c) (defs₀ (F := F)) Variants.none () Set.univ := fun t => by
  rw [bigSep_W0, bigSep_W0]
  exact sound_body m c t

/-! ## The launch -/

/-- What the launch hands the region is the invariant before position 0. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last position the invariant gives the scratch buffers back at some contents. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last, N_eq]; omega), PhiA_eq]
  iintro ⟨⟨HS0, ⟨%d1, -, HS1⟩⟩, Hg⟩
  isplitl [HS0 HS1]
  · isplitl [HS0]
    · iexists _; iexact HS0
    iexists _; iexact HS1
  iexact Hg

set_option backward.isDefEq.respectTransparency.types false in
/-- Every weakly fair execution of @main terminates, every windowed array ending at what the proof data computes
    (the inputs unchanged, the output at the blocks the second pass wrote back) and every other unscoped buffer at
    its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim's post, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.TwoPass

end
-- ==== Proof.TwoPassIdeal.Setup.lean ====
/-
  The two-pass kernel's grid is 2 × 25, row-major: positions 0 … 24 are the first pass (adjacency row-panel i against
  x · W1, rectified, times W2, stored as rows [400 i, 400 i + 400) of the second scratch), positions 25 … 49 the second
  pass (row-panel i against the whole second scratch, plus b2, log-softmax, stored as the output block). The first
  scratch x · W1 is computed at position 0 only. This module decides over the grid which of the body's three
  conditionals are taken where, where the output window is idle (the first pass) and where it is written back (the
  second pass), which rows the first pass stores, and names the memrefs the body is called with.
-/
import proofs.«168079_g83657372991743_cont_sun_c4_273_4_alg».proof.Proof.Gen.KernelIdeal.Frame
import proofs.«168079_g83657372991743_cont_sun_c4_273_4_alg».proof.Proof.Gen.KernelIdeal.Skeleton

set_option maxRecDepth 16384

noncomputable section

namespace Cert.KernelIdeal.TwoPass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's three conditionals, from the grid position -/

/-- The first conditional's condition (both coordinates zero), as the body computes it. -/
abbrev atFirst (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at position 0 only. -/
theorem atFirst_iff : ∀ t : Fin cfg0.N, atFirst (grid0.coords t) ↔ t.val = 0 :=
  (by decide +kernel : ∀ t : Fin grid0.N, atFirst (grid0.coords t) ↔ t.val = 0)

/-- The second conditional's condition: the first pass. -/
abbrev inPass0 (i : grid0.Coords) : Prop := k0_cond2 i = 1#1
theorem inPass0_iff : ∀ t : Fin cfg0.N, inPass0 (grid0.coords t) ↔ t.val < 25 :=
  (by decide +kernel : ∀ t : Fin grid0.N, inPass0 (grid0.coords t) ↔ t.val < 25)

/-- The third conditional's condition: the second pass. -/
abbrev inPass1 (i : grid0.Coords) : Prop := k0_cond3 i = 1#1
theorem inPass1_iff : ∀ t : Fin cfg0.N, inPass1 (grid0.coords t) ↔ 25 ≤ t.val :=
  (by decide +kernel : ∀ t : Fin grid0.N, inPass1 (grid0.coords t) ↔ 25 ≤ t.val)

/-- The rows the first pass stores at position t: from row 400 t. -/
theorem off_eq : ∀ t : Fin cfg0.N, t.val < 25 → k0_off1 (grid0.coords t) = ![400 * t.val, 0] :=
  (by decide +kernel : ∀ t : Fin grid0.N, t.val < 25 → k0_off1 (grid0.coords t) = ![400 * t.val, 0])

/-! ## Where the windows are idle and where the output is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The output window is idle exactly in the first pass … -/
theorem idle6_iff : ∀ t : Fin cfg0.N, cfg0.idle 6 (grid0.coords t) = true ↔ t.val < 25 :=
  (by decide +kernel : ∀ t : Fin grid0.N, cfg0.idle 6 (grid0.coords t) = true ↔ t.val < 25)
/-- … and written back exactly at the positions of the second pass: its block index is 0 through the first pass and
    at position 25, then moves by one at every position. -/
theorem flush6_iff : ∀ t : Fin cfg0.N, (cfg0.win 6).flush t = true ↔ 25 ≤ t.val :=
  (by decide +kernel : ∀ t : Fin grid0.N, win0_6.flush t = true ↔ 25 ≤ t.val)
/-- The block the output window holds at a position of the second pass: block t − 25. -/
theorem index6 : ∀ t : Fin cfg0.N, 25 ≤ t.val → win0_6.index t = ![t.val - 25, 0] :=
  (by decide +kernel : ∀ t : Fin grid0.N, 25 ≤ t.val → win0_6.index t = ![t.val - 25, 0])
/-- The adjacency row-panel a position reads: panel t mod 25. -/
theorem index1 : ∀ t : Fin cfg0.N, win0_1.index t = ![t.val % 25, 0] :=
  (by decide +kernel : ∀ t : Fin grid0.N, win0_1.index t = ![t.val % 25, 0])

/-! ## The memrefs the body is called with -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S400x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S400x64 .f32 := win0_6.stage (cfg0.slots t 6)
abbrev hs6 (t : Fin cfg0.N) : (ms6 t).IsWhole := hstage0_6 ((cfg0.slots t 6).cast nbuf0_6)
/-- The two scratch operands, whole buffers of the kernel's own: x · W1, and the first pass's result. -/
abbrev scr0 : Memref sig .tc .vmem S10000x64 .f32 := Memref.whole cc0_scratch0
abbrev scr1 : Memref sig .tc .vmem S10000x64 .f32 := Memref.whole cc0_scratch1

/-- What the launch hands the region besides the windows: both scratch buffers at some contents and the generator
    register at some state. -/
theorem PhiA_eq (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

end Cert.KernelIdeal.TwoPass

end
-- ==== Proof.TwoPassIdeal.RunSoftmax.lean ====
/-
  The body at a position of the second pass (only the third conditional taken): it loads the adjacency row-panel, the
  whole second scratch and the second bias, forms the scores, takes the row-wise log-softmax and stores the 400 × 64
  result over the whole output block. Stated on any whole memrefs: the inputs at their contents, both scratch
  buffers at given contents, the output block at anything; afterwards everything as it was but the output
  block, which holds the one store's piece written over what it held.
-/
import proofs.«168079_g83657372991743_cont_sun_c4_273_4_alg».proof.Proof.TwoPassIdeal.Setup

set_option maxRecDepth 16384

noncomputable section

namespace Cert.KernelIdeal.TwoPass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The second-pass run: the list of pieces the output block ends with (found by the run), and the triple. -/
noncomputable def runSoftmax (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x64 .f32) (harg9 : arg9.IsWhole) (arg10 : Memref sig .tc .vmem S10000x64 .f32) (harg10 : arg10.IsWhole) (hc0 : ¬atFirst i) (hc1 : ¬inPass0 i) (hc2 : inPass1 i)
    (x0 : Vec F S10000x128 .f32) (x1 : Vec F S400x10000 .f32) (x2 : Vec F S128x64 .f32) (x3 : Vec F S1x64 .f32) (x4 : Vec F S64x64 .f32) (x5 : Vec F S1x64 .f32) (xs0 xs1 : Vec F S10000x64 .f32) :
    { LO : List (View.Piece (Elt F) S400x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LO) ∗ owns (c : Thread nD τ) arg9 fullShare xs0 ∗ owns (c : Thread nD τ) arg10 fullShare xs1) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K } := by
  refine ⟨?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]
    · iexists _; isplitr; · ipureintro; exact harg9.read_unread _
      iexact HS0
    iexists _; isplitr; · ipureintro; exact harg10.read_unread _
    iexact HS1

end Cert.KernelIdeal.TwoPass

end
-- ==== Proof.TwoPassIdeal.RunAggregate.lean ====
/-
  The body at a position of the first pass other than position 0 (only the second conditional taken): it loads the
  adjacency row-panel, the whole first scratch (x · W1, left there by position 0), the first bias and W2, forms
  max (panel · scratch + b1, 0) · W2 and stores the 400 × 64 result as rows [400 i, 400 i + 400) of the second
  scratch. Stated on any whole memrefs: the inputs and the first scratch at their contents, the second scratch at given
  contents, which the run keeps outside the stored rows: afterwards it holds the one store's piece written over them.
-/
import proofs.«168079_g83657372991743_cont_sun_c4_273_4_alg».proof.Proof.TwoPassIdeal.Setup

set_option maxRecDepth 16384

noncomputable section

namespace Cert.KernelIdeal.TwoPass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The first-pass run away from position 0: the pieces the second scratch ends with (found by the run), and the triple. -/
noncomputable def runAggregate (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x64 .f32) (harg9 : arg9.IsWhole) (arg10 : Memref sig .tc .vmem S10000x64 .f32) (harg10 : arg10.IsWhole) (hc0 : ¬atFirst i) (hc1 : inPass0 i) (hc2 : ¬inPass1 i)
    (x0 : Vec F S10000x128 .f32) (x1 : Vec F S400x10000 .f32) (x2 : Vec F S128x64 .f32) (x3 : Vec F S1x64 .f32) (x4 : Vec F S64x64 .f32) (x5 : Vec F S1x64 .f32) (x6 : Vec F S400x64 .f32) (xs0 xs1 : Vec F S10000x64 .f32) :
    { LS1 : List (View.Piece (Elt F) S10000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare (arg10.view.read (Elt F) (arg10.view.writes (Elt F) (harg10.unread xs1) LS1))) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K } := by
  refine ⟨?_, fun E K => ?run⟩
  case run =>
    simp only [cc0__gcn_body_eq_skeleton]; unfold cc0__gcn_body_skel
    unfold owns
    iintro ⟨⟨%f0, %hf0, H0⟩, ⟨%f1', %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs1; obtain rfl := harg9.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; · ipureintro; exact harg9.read_unread _
      iexact HS0
    iexists _; isplitr; swap; · iexact HS1
    ipureintro; rfl

end Cert.KernelIdeal.TwoPass

end
-- ==== Proof.TwoPassIdeal.RunFirst.lean ====
/-
  The body at position 0 (the first and second conditionals taken): it forms x · W1 and stores it over the whole
  first scratch, then does the first pass's step on it: loads the adjacency row-panel, the first scratch just
  written, the first bias and W2, and stores max (panel · (x · W1) + b1, 0) · W2 as rows [0, 400) of the second
  scratch. Stated on any whole memrefs: the inputs at their contents, the first scratch at anything, the output block at
  contents it keeps, the second scratch at given contents, kept outside the stored rows.
-/
import proofs.«168079_g83657372991743_cont_sun_c4_273_4_alg».proof.Proof.TwoPassIdeal.Setup

set_option maxRecDepth 16384

noncomputable section

namespace Cert.KernelIdeal.TwoPass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The run at position 0: the pieces the first and the second scratch end with (found by the run), and the triple. -/
noncomputable def runFirst (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x64 .f32) (harg9 : arg9.IsWhole) (arg10 : Memref sig .tc .vmem S10000x64 .f32) (harg10 : arg10.IsWhole) (hc0 : atFirst i) (hc1 : inPass0 i) (hc2 : ¬inPass1 i)
    (x0 : Vec F S10000x128 .f32) (x1 : Vec F S400x10000 .f32) (x2 : Vec F S128x64 .f32) (x3 : Vec F S1x64 .f32) (x4 : Vec F S64x64 .f32) (x5 : Vec F S1x64 .f32) (x6 : Vec F S400x64 .f32) (xs1 : Vec F S10000x64 .f32) :
    { L : List (View.Piece (Elt F) S10000x64 .f32) × List (View.Piece (Elt F) S10000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L.1) ∗ owns (c : Thread nD τ) arg10 fullShare (arg10.view.read (Elt F) (arg10.view.writes (Elt F) (harg10.unread xs1) L.2))) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K } := by
  refine ⟨(?_, ?_), fun E K => ?run⟩
  case run =>
    simp only [cc0__gcn_body_eq_skeleton]; unfold cc0__gcn_body_skel
    unfold owns
    iintro ⟨⟨%f0, %hf0, H0⟩, ⟨%f1', %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; isplitr; swap; · iexact HS1
    ipureintro; rfl

end Cert.KernelIdeal.TwoPass

end
-- ==== Proof.TwoPassIdeal.Data.lean ====
/-
  What the two-pass kernel's buffers hold, position by position, as pure terms of the region-entry arrays (generic in
  the float instance: each is one of the body's three stored values applied to the blocks the position reads).

    firstScratch        = the first stored value at position 0's blocks of x and W1           (x · W1)
    aggBlock t          = the second stored value at position t's adjacency row-panel, firstScratch, b1, W2
    secondScratch       = row 400 t + p, column j  ↦  aggBlock t (p, j)                         (t < 25)
    outBlock t          = the third stored value at position t's row-panel, secondScratch, b2

  The invariant between positions: after position n ≥ 0 the first scratch holds firstScratch and the second scratch
  agrees with secondScratch on its rows below 400 (n + 1) (all of it from position 24 on). The output window's block
  after a position of the second pass is outBlock; in the first pass the window is idle and its buffer is left as found.
-/
import proofs.«168079_g83657372991743_cont_sun_c4_273_4_alg».proof.Proof.TwoPassIdeal.RunSoftmax
import proofs.«168079_g83657372991743_cont_sun_c4_273_4_alg».proof.Proof.TwoPassIdeal.RunAggregate
import proofs.«168079_g83657372991743_cont_sun_c4_273_4_alg».proof.Proof.TwoPassIdeal.RunFirst
import Idealize.ShloMosaic.Lib.ValueIdx

set_option maxRecDepth 16384

noncomputable section

namespace Cert.KernelIdeal.TwoPass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The blocks a position reads, at their literal types -/

abbrev blk0 (c : Dev nD) (t : Fin cfg0.N) : Vec F S10000x128 .f32 := iblk m c 0 t
abbrev blk1 (c : Dev nD) (t : Fin cfg0.N) : Vec F S400x10000 .f32 := iblk m c 1 t
abbrev blk2 (c : Dev nD) (t : Fin cfg0.N) : Vec F S128x64 .f32 := iblk m c 2 t
abbrev blk3 (c : Dev nD) (t : Fin cfg0.N) : Vec F S1x64 .f32 := iblk m c 3 t
abbrev blk4 (c : Dev nD) (t : Fin cfg0.N) : Vec F S64x64 .f32 := iblk m c 4 t
abbrev blk5 (c : Dev nD) (t : Fin cfg0.N) : Vec F S1x64 .f32 := iblk m c 5 t

theorem N_eq : cfg0.N = 50 := N_0

/-- Position 0. -/
def t0 : Fin cfg0.N := ⟨0, by rw [N_eq]; omega⟩

/-! ## The stored values -/

/-- The first scratch after position 0: x · W1 as the body forms it. -/
def firstScratch (c : Dev nD) : Vec F S10000x64 .f32 := k0_pay1 (blk0 m c t0) (blk2 m c t0)

/-- The 400 rows the first pass stores at position t. -/
def aggBlock (c : Dev nD) (t : Fin cfg0.N) : Vec F S400x64 .f32 :=
  k0_pay2 (blk1 m c t) (firstScratch m c) (blk3 m c t) (blk4 m c t)

/-- The second scratch once the first pass is over: row r is row r mod 400 of what position r / 400 stored. -/
def secondScratch (c : Dev nD) : Vec F S10000x64 .f32 := fun y =>
  aggBlock m c ⟨(y 0).val / 400, by have h : (y 0).val < 10000 := (y 0).isLt; rw [N_eq]; omega⟩
    (ValueIdx.ix2 (⟨(y 0).val % 400, Nat.mod_lt _ (by norm_num)⟩ : Fin 400) (y 1))

/-- The output block a position of the second pass stores. -/
def outBlock (c : Dev nD) (t : Fin cfg0.N) : Vec F S400x64 .f32 :=
  k0_pay3 (blk1 m c t) (secondScratch m c) (blk5 m c t)

/-- The second scratch holds the first pass's result on its rows below 400 n. -/
def Filled (c : Dev nD) (n : ℕ) (d : Vec F S10000x64 .f32) : Prop :=
  ∀ y : S10000x64.Idx, (y 0).val < 400 * n → d y = secondScratch m c y

theorem Filled.eq_of_le {c : Dev nD} {n : ℕ} {d : Vec F S10000x64 .f32} (h : Filled m c n d) (hn : 25 ≤ n) : d = secondScratch m c :=
  funext fun y => h y (by have h : (y 0).val < 10000 := (y 0).isLt; omega)

theorem filled_secondScratch (c : Dev nD) (n : ℕ) : Filled m c n (secondScratch m c) := fun _ _ => rfl

/-! ## The invariant between positions -/

/-- Before position 0 both scratch buffers hold anything; after position n the first holds x · W1 and the second the
    first pass's rows below 400 (n + 1). -/
def PhiS (c : Dev nD) : (n : ℕ) → n ≤ cfg0.N → sProp 𝕄
  | 0, _ => Pipeline.ΦA spec0 c
  | n + 1, _ => iprop(iprop(owns (c : Thread nD τ) scr0 fullShare (firstScratch m c) ∗ (∃ d, ⌜Filled m c (n + 1) d⌝ ∗ owns (c : Thread nD τ) scr1 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scr0 fullShare (firstScratch m c) ∗ (∃ d, ⌜Filled m c (n + 1) d⌝ ∗ owns (c : Thread nD τ) scr1 fullShare d)) ∗ (∃ r, prngReg c r)) := rfl

theorem PhiS_pos (c : Dev nD) (n : ℕ) (h : n ≤ cfg0.N) (hz : n ≠ 0) :
    PhiS m c n h = iprop(iprop(owns (c : Thread nD τ) scr0 fullShare (firstScratch m c) ∗ (∃ d, ⌜Filled m c n d⌝ ∗ owns (c : Thread nD τ) scr1 fullShare d)) ∗ (∃ r, prngReg c r)) := by
  cases n with
  | zero => exact absurd rfl hz
  | succ n => rfl

/-! ## The pipeline's proof data -/

/-- The arrays as the region finds them; after the body each input's buffer at its block, the output's at outBlock
    (read only at the positions of the second pass: in the first the window is idle); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlock m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outBlock m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

end Cert.KernelIdeal.TwoPass

end
-- ==== Proof.TwoPassIdeal.Pieces.lean ====
/-
  The pieces each run leaves, in closed form: a load through a whole block of a buffer at contents X reads X, and a
  load of the first scratch right after its one whole-buffer store reads the stored value. So the second pass leaves
  ONE piece over the whole output block, the third stored value of (row-panel, second scratch, b2); the first pass
  leaves ONE piece of 400 rows of the second scratch, the second stored value of (row-panel, first scratch, b1, W2);
  and position 0 first leaves ONE piece over the whole first scratch, the first stored value of (x, W1).
-/
import proofs.«168079_g83657372991743_cont_sun_c4_273_4_alg».proof.Proof.TwoPassIdeal.RunSoftmax
import proofs.«168079_g83657372991743_cont_sun_c4_273_4_alg».proof.Proof.TwoPassIdeal.RunAggregate
import proofs.«168079_g83657372991743_cont_sun_c4_273_4_alg».proof.Proof.TwoPassIdeal.RunFirst
import Idealize.ShloMosaic.Lib.Pipeline.Value

set_option maxRecDepth 16384

noncomputable section

namespace Cert.KernelIdeal.TwoPass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem zeros2 : (![0, 0] : Fin 2 → ℕ) = fun _ => 0 := by
  funext a; match a with | ⟨0, _⟩ => rfl | ⟨1, _⟩ => rfl

theorem runSoftmax_pieces (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x64 .f32) (harg9 : arg9.IsWhole) (arg10 : Memref sig .tc .vmem S10000x64 .f32) (harg10 : arg10.IsWhole) (hc0 : ¬atFirst i) (hc1 : ¬inPass0 i) (hc2 : inPass1 i)
    (x0 : Vec F S10000x128 .f32) (x1 : Vec F S400x10000 .f32) (x2 : Vec F S128x64 .f32) (x3 : Vec F S1x64 .f32) (x4 : Vec F S64x64 .f32) (x5 : Vec F S1x64 .f32) (xs0 xs1 : Vec F S10000x64 .f32) :
    (runSoftmax c i arg2 harg2 arg3 harg3 arg4 harg4 arg5 harg5 arg6 harg6 arg7 harg7 arg8 harg8 arg9 harg9 arg10 harg10 hc0 hc1 hc2 x0 x1 x2 x3 x4 x5 xs0 xs1).1
      = [(⟨Rect.unit (s := S400x64) ![0, 0] S400x64.size inb_S400x64_S400x64_0_0, k0_pay3 x1 xs1 x5⟩ : View.Piece (Elt F) S400x64 .f32)] := by
  unfold runSoftmax
  dsimp only
  sl_unfold_words
  simp only [View.readAt_eq_ld, harg3.read_unread, harg10.read_unread, harg7.read_unread,
    View.ld_unit_zero (S := S400x10000) zeros2, View.ld_unit_zero (S := S10000x64) zeros2, View.ld_unit_zero (S := S1x64) zeros2]

theorem runAggregate_pieces (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x64 .f32) (harg9 : arg9.IsWhole) (arg10 : Memref sig .tc .vmem S10000x64 .f32) (harg10 : arg10.IsWhole) (hc0 : ¬atFirst i) (hc1 : inPass0 i) (hc2 : ¬inPass1 i)
    (x0 : Vec F S10000x128 .f32) (x1 : Vec F S400x10000 .f32) (x2 : Vec F S128x64 .f32) (x3 : Vec F S1x64 .f32) (x4 : Vec F S64x64 .f32) (x5 : Vec F S1x64 .f32) (x6 : Vec F S400x64 .f32) (xs0 xs1 : Vec F S10000x64 .f32) :
    (runAggregate c i arg2 harg2 arg3 harg3 arg4 harg4 arg5 harg5 arg6 harg6 arg7 harg7 arg8 harg8 arg9 harg9 arg10 harg10 hc0 hc1 hc2 x0 x1 x2 x3 x4 x5 x6 xs0 xs1).1
      = [(⟨Rect.unit (s := S10000x64) (k0_off1 i) S400x64.size (k0_off1_inb i hc1), k0_pay2 x1 xs0 x3 x4⟩ : View.Piece (Elt F) S10000x64 .f32)] := by
  unfold runAggregate
  dsimp only
  sl_unfold_words
  simp only [View.readAt_eq_ld, harg3.read_unread, harg9.read_unread, harg5.read_unread, harg6.read_unread,
    View.ld_unit_zero (S := S400x10000) zeros2, View.ld_unit_zero (S := S10000x64) zeros2, View.ld_unit_zero (S := S1x64) zeros2,
    View.ld_unit_zero (S := S64x64) zeros2]

theorem runFirst_pieces (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x64 .f32) (harg9 : arg9.IsWhole) (arg10 : Memref sig .tc .vmem S10000x64 .f32) (harg10 : arg10.IsWhole) (hc0 : atFirst i) (hc1 : inPass0 i) (hc2 : ¬inPass1 i)
    (x0 : Vec F S10000x128 .f32) (x1 : Vec F S400x10000 .f32) (x2 : Vec F S128x64 .f32) (x3 : Vec F S1x64 .f32) (x4 : Vec F S64x64 .f32) (x5 : Vec F S1x64 .f32) (x6 : Vec F S400x64 .f32) (xs1 : Vec F S10000x64 .f32) :
    (runFirst c i arg2 harg2 arg3 harg3 arg4 harg4 arg5 harg5 arg6 harg6 arg7 harg7 arg8 harg8 arg9 harg9 arg10 harg10 hc0 hc1 hc2 x0 x1 x2 x3 x4 x5 x6 xs1).1
      = ([(⟨Rect.unit (s := S10000x64) ![0, 0] S10000x64.size inb_S10000x64_S10000x64_0_0, k0_pay1 x0 x2⟩ : View.Piece (Elt F) S10000x64 .f32)],
         [(⟨Rect.unit (s := S10000x64) (k0_off1 i) S400x64.size (k0_off1_inb i hc1), k0_pay2 x1 (k0_pay1 x0 x2) x3 x4⟩ : View.Piece (Elt F) S10000x64 .f32)]) := by
  unfold runFirst
  dsimp only
  sl_unfold_words
  simp only [View.readAt_eq_ld, harg2.read_unread, harg3.read_unread, harg4.read_unread, harg5.read_unread, harg6.read_unread,
    View.readCov_unit_zero (S := S10000x64) _ zeros2,
    View.ld_unit_zero (S := S10000x128) zeros2, View.ld_unit_zero (S := S128x64) zeros2,
    View.ld_unit_zero (S := S400x10000) zeros2, View.ld_unit_zero (S := S10000x64) zeros2, View.ld_unit_zero (S := S1x64) zeros2,
    View.ld_unit_zero (S := S64x64) zeros2]

end Cert.KernelIdeal.TwoPass

end
-- ==== Proof.TwoPassIdeal.Body.lean ====
/-
  The body obligation of the two-pass kernel at every position, and the launch.

  Position 0: both scratch buffers arrive at anything; the first leaves holding x · W1, the second with its rows
  [0, 400) written. Positions 1 … 24: the first scratch is read, rows [400 t, 400 t + 400) of the second are written
  over what it held, so its rows below 400 (t + 1) hold the first pass's result. Through the first pass the output
  window is idle: its buffer goes back as it came. Positions 25 … 49: the second scratch is complete and only read;
  the output block is stored whole. From the body obligation the library's frame run gives every windowed array
  after the run as the proof data computes it, and the other buffers unchanged.
-/
import proofs.«168079_g83657372991743_cont_sun_c4_273_4_alg».proof.Proof.TwoPassIdeal.Data
import proofs.«168079_g83657372991743_cont_sun_c4_273_4_alg».proof.Proof.TwoPassIdeal.Pieces
import Idealize.ShloMosaic.Lib.WritesUnit

set_option maxRecDepth 16384

noncomputable section

namespace Cert.KernelIdeal.TwoPass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Reading the pieces back -/

/-- One store through the whole shape leaves its payload, whatever the buffer held. -/
theorem read_whole_piece {sg : RefSig} {κ : Kind} {sp : Space} {S : Shape} {e : EltTy} (v : View sg κ sp S e) (f : v.ty.Contents (Elt F))
    {off : Fin S.rank → ℕ} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩), View.canon_unit_zero h]

/-- The first pass's step on the second scratch: 400 rows from row 400 n written with position n's rows over
    contents that hold the result below row 400 n give contents that hold it below row 400 (n + 1). -/
theorem filled_step (c : Dev nD) (n : ℕ) (d1 : Vec F S10000x64 .f32) (hd : Filled m c n d1) (tn : Fin cfg0.N) (htn : tn.val = n) (hn : n < 25)
    (off : Fin 2 → ℕ) (inb : ∀ a : Fin 2, off a + S400x64.size a ≤ S10000x64.size a) (hoff : off = ![400 * n, 0])
    (hw : (Memref.whole cc0_scratch1 : Memref sig .tc .vmem S10000x64 .f32).IsWhole) :
    Filled m c (n + 1) (scr1.view.read (Elt F) (scr1.view.writes (Elt F) (hw.unread d1)
      [(⟨Rect.unit (s := S10000x64) off S400x64.size inb, aggBlock m c tn⟩ : View.Piece (Elt F) S10000x64 .f32)])) := by
  intro y hy
  have hy0 : (y 0).val < 10000 := (y 0).isLt
  by_cases h : 400 * n ≤ (y 0).val
  · rw [View.read_writes_cons_rows_of_mem scr1.view _ inb (aggBlock m c tn) [] y
      (ValueIdx.ix2 (⟨(y 0).val % 400, Nat.mod_lt _ (by norm_num)⟩ : Fin 400) (y 1)) hoff
      (by show (y 0).val = 400 * n + (y 0).val % 400; omega) rfl]
    have e : (⟨(y 0).val / 400, by rw [N_eq]; omega⟩ : Fin cfg0.N) = tn := Fin.ext (by show (y 0).val / 400 = tn.val; omega)
    unfold secondScratch
    rw [e]
  · rw [View.read_writes_cons_rows_of_not_mem scr1.view _ inb (aggBlock m c tn) [] y hoff (W := 400) rfl (Or.inl (by omega)),
      View.writes_nil, hw.read_unread]
    exact hd y (by omega)

/-! ## The body obligation -/

/-- What the body is called with at position t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- A position of the second pass. -/
theorem sound_softmax (c : Dev nD) (t : Fin cfg0.N) (h2 : 25 ≤ t.val) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl, PhiS_succ]
  have hN : t.val < 50 := lt_of_lt_of_eq t.isLt N_eq
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 2 t = owns (c : Thread nD τ) (ms2 t) fullShare ((dats m 0 c).after 2 t) from by
    unfold Dat.leavesExact; rw [live2 t], after_2]
  rw [show (dats m 0 c).leavesExact 3 t = owns (c : Thread nD τ) (ms3 t) fullShare ((dats m 0 c).after 3 t) from by
    unfold Dat.leavesExact; rw [live3 t], after_3]
  rw [show (dats m 0 c).leavesExact 4 t = owns (c : Thread nD τ) (ms4 t) fullShare ((dats m 0 c).after 4 t) from by
    unfold Dat.leavesExact; rw [live4 t], after_4]
  rw [show (dats m 0 c).leavesExact 5 t = owns (c : Thread nD τ) (ms5 t) fullShare ((dats m 0 c).after 5 t) from by
    unfold Dat.leavesExact; rw [live5 t], after_5]
  have hz : t.val ≠ 0 := by omega
  have h1 : ¬ t.val < 25 := by omega
  rw [show (dats m 0 c).leavesExact 6 t = owns (c : Thread nD τ) (ms6 t) fullShare ((dats m 0 c).after 6 t) from by
    unfold Dat.leavesExact
    rw [show cfg0.idle 6 (grid0.coords t) = false from Bool.eq_false_iff.mpr (fun h => h1 ((idle6_iff t).mp h))], after_6]
  rw [PhiS_castSucc m c t, PhiS_pos m c _ _ hz]
  iintro ⟨⟨⟨HS0, ⟨%d1, %hd1, HS1⟩⟩, Hg⟩, Ho, ⟨%e0, H0⟩, ⟨%e1, H1⟩, ⟨%e2, H2⟩, ⟨%e3, H3⟩, ⟨%e4, H4⟩, ⟨%e5, H5⟩, ⟨%e6, H6⟩⟩
  obtain rfl := hd1.eq_of_le m h2
  iapply ((runSoftmax c (grid0.coords t) _ _ _ _ _ _ _ _ _ _ _ _ _ _ _ _ _ _ (fun h => hz ((atFirst_iff t).mp h)) (fun h => h1 ((inPass0_iff t).mp h)) ((inPass1_iff t).mpr h2) (iblk m c 0 t) (iblk m c 1 t) (iblk m c 2 t) (iblk m c 3 t) (iblk m c 4 t) (iblk m c 5 t) (firstScratch m c) (secondScratch m c)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, ⟨%f6, H6⟩, HS0, HS1⟩
  isplitl [HS0 HS1 Hg]
  · isplitl [HS0 HS1]
    · isplitl [HS0]; · iexact HS0
      iexists _; isplitr; · ipureintro; exact filled_secondScratch m c _
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr; swap; · iexact H6
  ipureintro
  rw [runSoftmax_pieces]
  exact read_whole_piece _ _ zeros2 _ _

set_option maxHeartbeats 4000000 in
/-- A position of the first pass other than position 0. -/
theorem sound_aggregate (c : Dev nD) (t : Fin cfg0.N) (hz : t.val ≠ 0) (h1 : t.val < 25) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl, PhiS_succ]
  have hN : t.val < 50 := lt_of_lt_of_eq t.isLt N_eq
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 2 t = owns (c : Thread nD τ) (ms2 t) fullShare ((dats m 0 c).after 2 t) from by
    unfold Dat.leavesExact; rw [live2 t], after_2]
  rw [show (dats m 0 c).leavesExact 3 t = owns (c : Thread nD τ) (ms3 t) fullShare ((dats m 0 c).after 3 t) from by
    unfold Dat.leavesExact; rw [live3 t], after_3]
  rw [show (dats m 0 c).leavesExact 4 t = owns (c : Thread nD τ) (ms4 t) fullShare ((dats m 0 c).after 4 t) from by
    unfold Dat.leavesExact; rw [live4 t], after_4]
  rw [show (dats m 0 c).leavesExact 5 t = owns (c : Thread nD τ) (ms5 t) fullShare ((dats m 0 c).after 5 t) from by
    unfold Dat.leavesExact; rw [live5 t], after_5]
  have h2 : ¬ 25 ≤ t.val := by omega
  rw [(dats m 0 c).leavesExact_idle 6 t ((idle6_iff t).mpr h1) (Bool.eq_false_iff.mpr (fun h => h2 ((flush6_iff t).mp h)))]
  rw [PhiS_castSucc m c t, PhiS_pos m c _ _ hz]
  iintro ⟨⟨⟨HS0, ⟨%d1, %hd1, HS1⟩⟩, Hg⟩, Ho, ⟨%e0, H0⟩, ⟨%e1, H1⟩, ⟨%e2, H2⟩, ⟨%e3, H3⟩, ⟨%e4, H4⟩, ⟨%e5, H5⟩, ⟨%e6, H6⟩⟩
  iapply ((runAggregate c (grid0.coords t) _ _ _ _ _ _ _ _ _ _ _ _ _ _ _ _ _ _ (fun h => hz ((atFirst_iff t).mp h)) ((inPass0_iff t).mpr h1) (fun h => h2 ((inPass1_iff t).mp h)) (iblk m c 0 t) (iblk m c 1 t) (iblk m c 2 t) (iblk m c 3 t) (iblk m c 4 t) (iblk m c 5 t) ((dats m 0 c).before 6 t e6) (firstScratch m c) d1).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]; · iexact HS0
      iexists _; isplitr; swap; · iexact HS1
      ipureintro
      rw [runAggregate_pieces]
      exact filled_step m c t.val d1 hd1 t rfl h1 _ _ (off_eq t h1) _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 4000000 in
/-- Position 0. -/
theorem sound_first (c : Dev nD) :
    bodyPre m c t0 ⊢ wp frame (wpE (defs₀ (F := F)) Variants.none c none) Set.univ (bodyAt0 t0) (fun _ => bodyPost m c t0) := by
  have hz : (t0 : Fin cfg0.N).val = 0 := rfl
  have h1 : (t0 : Fin cfg0.N).val < 25 := by rw [hz]; omega
  have h2 : ¬ 25 ≤ (t0 : Fin cfg0.N).val := by omega
  generalize ht : (t0 : Fin cfg0.N) = t at hz h1 h2 ⊢
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl, PhiS_succ]
  have hN : t.val < 50 := lt_of_lt_of_eq t.isLt N_eq
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 2 t = owns (c : Thread nD τ) (ms2 t) fullShare ((dats m 0 c).after 2 t) from by
    unfold Dat.leavesExact; rw [live2 t], after_2]
  rw [show (dats m 0 c).leavesExact 3 t = owns (c : Thread nD τ) (ms3 t) fullShare ((dats m 0 c).after 3 t) from by
    unfold Dat.leavesExact; rw [live3 t], after_3]
  rw [show (dats m 0 c).leavesExact 4 t = owns (c : Thread nD τ) (ms4 t) fullShare ((dats m 0 c).after 4 t) from by
    unfold Dat.leavesExact; rw [live4 t], after_4]
  rw [show (dats m 0 c).leavesExact 5 t = owns (c : Thread nD τ) (ms5 t) fullShare ((dats m 0 c).after 5 t) from by
    unfold Dat.leavesExact; rw [live5 t], after_5]
  rw [(dats m 0 c).leavesExact_idle 6 t ((idle6_iff t).mpr h1) (Bool.eq_false_iff.mpr (fun h => h2 ((flush6_iff t).mp h)))]
  rw [PhiS_castSucc m c t, PhiS_zero m c _ _ hz, PhiA_eq]
  iintro ⟨⟨⟨⟨%d0, HS0⟩, ⟨%d1, HS1⟩⟩, Hg⟩, Ho, ⟨%e0, H0⟩, ⟨%e1, H1⟩, ⟨%e2, H2⟩, ⟨%e3, H3⟩, ⟨%e4, H4⟩, ⟨%e5, H5⟩, ⟨%e6, H6⟩⟩
  iapply ((runFirst c (grid0.coords t) _ _ _ _ _ _ _ _ _ _ _ _ _ _ _ _ _ _ ((atFirst_iff t).mpr hz) ((inPass0_iff t).mpr h1) (fun h => h2 ((inPass1_iff t).mp h)) (iblk m c 0 t) (iblk m c 1 t) (iblk m c 2 t) (iblk m c 3 t) (iblk m c 4 t) (iblk m c 5 t) ((dats m 0 c).before 6 t e6) d1).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexists _; iexact HS0
  isplitl [HS1]; · iexact HS1
  iintro ⟨H0, H1, H2, H3, H4, H5, H6, ⟨%fs0, HS0⟩, HS1⟩
  isplitl [HS0 HS1 Hg]
  · isplitl [HS0 HS1]
    · isplitl [HS0]
      · unfold owns; iexists _; isplitr; swap; · iexact HS0
        ipureintro
        rw [runFirst_pieces]
        subst ht
        exact read_whole_piece _ _ zeros2 _ _
      iexists _; isplitr; swap; · iexact HS1
      ipureintro
      rw [runFirst_pieces]
      subst ht
      exact filled_step m c 0 d1 (fun y hy => absurd hy (by omega)) t0 rfl (by omega) _ _ (off_eq t0 (by rw [show (t0 : Fin cfg0.N).val = 0 from rfl]; omega)) _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

/-- The body at any position. -/
theorem sound_body (c : Dev nD) (t : Fin cfg0.N) :
    bodyPre m c t ⊢ wp frame (wpE (defs₀ (F := F)) Variants.none c none) Set.univ (bodyAt0 t) (fun _ => bodyPost m c t) := by
  by_cases h1 : t.val < 25
  · by_cases hz : t.val = 0
    · obtain rfl : t = t0 := Fin.ext hz
      exact sound_first m c
    · exact sound_aggregate m c t hz h1
  · exact sound_softmax m c t (by omega)

/-- The library's body obligation, at every position. -/
theorem body_obligation (c : Dev nD) : BodyObligation (dats (F := F) m 0 c) (defs₀ (F := F)) Variants.none () Set.univ := fun t => by
  rw [bigSep_W0, bigSep_W0]
  exact sound_body m c t

/-! ## The launch -/

/-- What the launch hands the region is the invariant before position 0. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last position the invariant gives the scratch buffers back at some contents. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last, N_eq]; omega), PhiA_eq]
  iintro ⟨⟨HS0, ⟨%d1, -, HS1⟩⟩, Hg⟩
  isplitl [HS0 HS1]
  · isplitl [HS0]
    · iexists _; iexact HS0
    iexists _; iexact HS1
  iexact Hg

set_option backward.isDefEq.respectTransparency.types false in
/-- Every weakly fair execution of @main terminates, every windowed array ending at what the proof data computes
    (the inputs unchanged, the output at the blocks the second pass wrote back) and every other unscoped buffer at
    its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim's post, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.TwoPass

end
-- ==== Proof.GcnSpec.lean ====
/-
  Two graph-convolution layers followed by a row-wise log-softmax, as ONE function of the six argument arrays,
  entry by entry, on the extended reals:

    support  = x · W1                                   (10000 × 64)
    hidden   = max (adj · support + b1, 0)              (10000 × 64)
    project  = hidden · W2                              (10000 × 64)
    scores   = adj · project + b2                       (10000 × 64)
    out r j  = log-softmax of row r of scores, at j.

  The log-softmax is written in the two arrangements the two programs use. With m the row's maximum and
  L = log (Σ_j exp (scores r j − m)):
    shifted : (scores r j − m) − L          (shift first, then subtract the log of the sum)
    direct  : scores r j − (L + m)          (subtract the log-sum-exp from the unshifted score)
  They agree wherever scores r j, m and L are real numbers; on the extended reals subtraction does not
  re-associate at the infinities, so the agreement needs the arguments finite.
-/
import Idealize.ShloMosaic.PureOps.Ideal
import Idealize.ShloMosaic.Lib.ValueIdx

noncomputable section

open scoped BigOperators
open Idealize.ShloMosaic Idealize.ShloMosaic.ValueIdx

namespace Cert.GcnSpec

abbrev SX : Shape := ⟨2, ![10000, 128]⟩
abbrev SA : Shape := ⟨2, ![10000, 10000]⟩
abbrev SW1 : Shape := ⟨2, ![128, 64]⟩
abbrev SB : Shape := ⟨1, ![64]⟩
abbrev SW2 : Shape := ⟨2, ![64, 64]⟩
abbrev SO : Shape := ⟨2, ![10000, 64]⟩

/-- `x · W1`: row `r` of the features against column `k` of the first weight matrix. -/
def support (x : SX.Idx → EReal) (W1 : SW1.Idx → EReal) (r : Fin 10000) (k : Fin 64) : EReal :=
  ∑ l : Fin 128, x (ix2 r l) * W1 (ix2 l k)

/-- `max (adj · s + b1, 0)`: one aggregation over the 10000 neighbours, the bias, the rectifier. -/
def hidden (adj : SA.Idx → EReal) (s : Fin 10000 → Fin 64 → EReal) (b1 : SB.Idx → EReal) (r : Fin 10000) (k : Fin 64) : EReal :=
  max ((∑ l : Fin 10000, adj (ix2 r l) * s l k) + b1 (ix1 k)) 0

/-- `h · W2`. -/
def project (h : Fin 10000 → Fin 64 → EReal) (W2 : SW2.Idx → EReal) (r : Fin 10000) (j : Fin 64) : EReal :=
  ∑ k : Fin 64, h r k * W2 (ix2 k j)

/-- `adj · p + b2`: the second aggregation and its bias. -/
def logits (adj : SA.Idx → EReal) (p : Fin 10000 → Fin 64 → EReal) (b2 : SB.Idx → EReal) (r : Fin 10000) (j : Fin 64) : EReal :=
  (∑ l : Fin 10000, adj (ix2 r l) * p l j) + b2 (ix1 j)

/-- Row `r` of the scores the log-softmax is taken of. -/
def scores (x : SX.Idx → EReal) (adj : SA.Idx → EReal) (W1 : SW1.Idx → EReal) (b1 : SB.Idx → EReal) (W2 : SW2.Idx → EReal)
    (b2 : SB.Idx → EReal) (r : Fin 10000) : Fin 64 → EReal :=
  logits adj (project (hidden adj (support x W1) b1) W2) b2 r

/-- A row's maximum, from `-∞`. -/
def rowMax (o : Fin 64 → EReal) : EReal := Finset.univ.fold max ⊥ o

/-- `Σ_j exp (o j − max o)`. -/
def sumExp (o : Fin 64 → EReal) : EReal := ∑ j : Fin 64, Ideal.exp (o j - rowMax o)

/-- Log-softmax, shifted first: `(o j − m) − log Σ exp (o − m)`. -/
def lsmShifted (o : Fin 64 → EReal) (j : Fin 64) : EReal := (o j - rowMax o) - Ideal.log (sumExp o)

/-- Log-softmax, the log-sum-exp subtracted from the unshifted score: `o j − (log Σ exp (o − m) + m)`. -/
def lsmDirect (o : Fin 64 → EReal) (j : Fin 64) : EReal := o j - (Ideal.log (sumExp o) + rowMax o)

/-- The result array in the shifted arrangement. -/
def outShifted (x : SX.Idx → EReal) (adj : SA.Idx → EReal) (W1 : SW1.Idx → EReal) (b1 : SB.Idx → EReal) (W2 : SW2.Idx → EReal)
    (b2 : SB.Idx → EReal) : SO.Idx → EReal :=
  fun i => lsmShifted (scores x adj W1 b1 W2 b2 (i 0)) (i 1)

/-- The result array in the direct arrangement. -/
def outDirect (x : SX.Idx → EReal) (adj : SA.Idx → EReal) (W1 : SW1.Idx → EReal) (b1 : SB.Idx → EReal) (W2 : SW2.Idx → EReal)
    (b2 : SB.Idx → EReal) : SO.Idx → EReal :=
  fun i => lsmDirect (scores x adj W1 b1 W2 b2 (i 0)) (i 1)

end Cert.GcnSpec

end
-- ==== Proof.KernelPayloads.lean ====
/-
  The three values the kernel stores, each read at one index, at the ideal instance (the extended reals).

  Every value is a pure term over matrix products into a zero accumulator, layout changes, pointwise
  arithmetic, and lane reductions. Read at an index (p, q):
    * a product of an [m, K] by a [K, n] matrix is the sum over the K contraction coordinates of the
      operands' products (the contraction index set, one axis of extent K, is re-indexed by its coordinate);
    * a layout change to the same shape is the identity; a [1, n] row broadcast to [m, n] reads the row at
      the column; an [m] column made [m, 1] and broadcast to [m, n] reads the column at the row;
    * a lane maximum from -∞ is the fold of max from ⊥ over the row, a lane sum from 0 the sum over the row.
  The results are stated against the specification's own functions.
-/
import proofs.«168079_g83657372991743_cont_sun_c4_273_4_alg».proof.Proof.Gen.KernelIdeal.Skeleton
import proofs.«168079_g83657372991743_cont_sun_c4_273_4_alg».proof.Proof.GcnSpec
import Idealize.ShloMosaic.Lib.ValueIdx
import Idealize.ShloMosaic.Lib.Pipeline.Value
import Idealize.ShloMosaic.Lib.ValueLayout
import Idealize.ShloMosaic.PureOps.Ideal.Laws

noncomputable section

open scoped BigOperators
open Idealize.ShloMosaic Idealize.ShloMosaic.ValueIdx Cert.KernelIdeal Cert.KernelIdeal.Gen

namespace Cert.KernelIdeal.Payloads

/-! ## The features times the first weights: [10000, 128] · [128, 64] -/

/-- The left operand's row coordinate is the result's row. -/
theorem lhs_xw_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide),
    dif_pos (show (0 : Fin S10000x128.rank) ∈ dot_S10000x128_S128x64_S10000x64_1_0_0_1_n_n.lhsNonContracting by decide)]
  rfl
/-- The left operand's column coordinate is the contraction coordinate. -/
theorem lhs_xw_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
/-- The right operand's row coordinate is the contraction coordinate. -/
theorem rhs_xw_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
/-- The right operand's column coordinate is the result's column. -/
theorem rhs_xw_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide),
    dif_pos (show (1 : Fin S128x64.rank) ∈ dot_S10000x128_S128x64_S10000x64_1_0_0_1_n_n.rhsNonContracting by decide)]
  rfl

/-- The product into the zero accumulator, at (p, q): the sum over the 128 contraction coordinates. -/
theorem matmul_xw_apply (u : FVec Ideal S10000x128 .f32) (v : FVec Ideal S128x64 .f32) (p : Fin 10000) (q : Fin 64) :
    matmul dot_S10000x128_S128x64_S10000x64_1_0_0_1_n_n none u v (constant (F := Ideal) S10000x64 .f32 0x00000000#32) (ix2 p q)
      = ∑ l : Fin 128, u (ix2 p l) * v (ix2 l q) := by
  simp only [matmul]
  rw [Ideal.matmul_constant_zero_apply,
    ← Equiv.sum_comp (contrEquiv1 dot_S10000x128_S128x64_S10000x64_1_0_0_1_n_n 128 rfl rfl).symm]
  refine Finset.sum_congr rfl fun l _ => ?_
  have hl := contrEquiv1_symm_val dot_S10000x128_S128x64_S10000x64_1_0_0_1_n_n 128 rfl rfl l
  have el : dot_S10000x128_S128x64_S10000x64_1_0_0_1_n_n.lhsIdx (ix2 p q) ((contrEquiv1 dot_S10000x128_S128x64_S10000x64_1_0_0_1_n_n 128 rfl rfl).symm l) = ix2 p l :=
    funext fun a => Fin.ext (by
      match a with
      | ⟨0, _⟩ => exact lhs_xw_0 _ _
      | ⟨1, _⟩ => exact (lhs_xw_1 _ _).trans hl)
  have er : dot_S10000x128_S128x64_S10000x64_1_0_0_1_n_n.rhsIdx (ix2 p q) ((contrEquiv1 dot_S10000x128_S128x64_S10000x64_1_0_0_1_n_n 128 rfl rfl).symm l) = ix2 l q :=
    funext fun a => Fin.ext (by
      match a with
      | ⟨0, _⟩ => exact (rhs_xw_0 _ _).trans hl
      | ⟨1, _⟩ => exact rhs_xw_1 _ _)
  rw [el, er]

/-- The first stored value at (r, k): row r of the features against column k of the first weights. -/
theorem pay1_apply (x : Vec Ideal S10000x128 .f32) (w1 : Vec Ideal S128x64 .f32) (r : Fin 10000) (k : Fin 64) :
    k0_pay1 (F := Ideal) x w1 (ix2 r k) = Cert.GcnSpec.support x w1 r k := by
  unfold k0_pay1
  rw [shapeCast_self]
  exact matmul_xw_apply x w1 r k

/-! ## A block of adjacency rows times a [10000, 64] matrix: [400, 10000] · [10000, 64] -/

/-- The left operand's row coordinate is the result's row. -/
theorem lhs_as_0 (i : S400x64.Idx) (q : dot_S400x10000_S10000x64_S400x64_1_0_0_1_n_n.contr.Idx) :
    (dot_S400x10000_S10000x64_S400x64_1_0_0_1_n_n.lhsIdx i q 0).val = (i 0).val := by
  unfold DotDims.lhsIdx
  rw [dif_neg (show ¬(0 : Fin S400x10000.rank) ∈ dot_S400x10000_S10000x64_S400x64_1_0_0_1_n_n.lhsBatch by decide),
    dif_pos (show (0 : Fin S400x10000.rank) ∈ dot_S400x10000_S10000x64_S400x64_1_0_0_1_n_n.lhsNonContracting by decide)]
  rfl
/-- The left operand's column coordinate is the contraction coordinate. -/
theorem lhs_as_1 (i : S400x64.Idx) (q : dot_S400x10000_S10000x64_S400x64_1_0_0_1_n_n.contr.Idx) :
    (dot_S400x10000_S10000x64_S400x64_1_0_0_1_n_n.lhsIdx i q 1).val = (q ⟨0, by decide⟩).val :=
  dot_S400x10000_S10000x64_S400x64_1_0_0_1_n_n.lhsIdx_val_of_single rfl i q
/-- The right operand's row coordinate is the contraction coordinate. -/
theorem rhs_as_0 (i : S400x64.Idx) (q : dot_S400x10000_S10000x64_S400x64_1_0_0_1_n_n.contr.Idx) :
    (dot_S400x10000_S10000x64_S400x64_1_0_0_1_n_n.rhsIdx i q 0).val = (q ⟨0, by decide⟩).val :=
  dot_S400x10000_S10000x64_S400x64_1_0_0_1_n_n.rhsIdx_val_of_single rfl i q
/-- The right operand's column coordinate is the result's column. -/
theorem rhs_as_1 (i : S400x64.Idx) (q : dot_S400x10000_S10000x64_S400x64_1_0_0_1_n_n.contr.Idx) :
    (dot_S400x10000_S10000x64_S400x64_1_0_0_1_n_n.rhsIdx i q 1).val = (i 1).val := by
  unfold DotDims.rhsIdx
  rw [dif_neg (show ¬(1 : Fin S10000x64.rank) ∈ dot_S400x10000_S10000x64_S400x64_1_0_0_1_n_n.rhsBatch by decide),
    dif_pos (show (1 : Fin S10000x64.rank) ∈ dot_S400x10000_S10000x64_S400x64_1_0_0_1_n_n.rhsNonContracting by decide)]
  rfl

/-- The product into the zero accumulator, at (p, q): the sum over the 10000 contraction coordinates. -/
theorem matmul_as_apply (u : FVec Ideal S400x10000 .f32) (v : FVec Ideal S10000x64 .f32) (p : Fin 400) (q : Fin 64) :
    matmul dot_S400x10000_S10000x64_S400x64_1_0_0_1_n_n none u v (constant (F := Ideal) S400x64 .f32 0x00000000#32) (ix2 p q)
      = ∑ l : Fin 10000, u (ix2 p l) * v (ix2 l q) := by
  simp only [matmul]
  rw [Ideal.matmul_constant_zero_apply,
    ← Equiv.sum_comp (contrEquiv1 dot_S400x10000_S10000x64_S400x64_1_0_0_1_n_n 10000 rfl rfl).symm]
  refine Finset.sum_congr rfl fun l _ => ?_
  have hl := contrEquiv1_symm_val dot_S400x10000_S10000x64_S400x64_1_0_0_1_n_n 10000 rfl rfl l
  have el : dot_S400x10000_S10000x64_S400x64_1_0_0_1_n_n.lhsIdx (ix2 p q) ((contrEquiv1 dot_S400x10000_S10000x64_S400x64_1_0_0_1_n_n 10000 rfl rfl).symm l) = ix2 p l :=
    funext fun a => Fin.ext (by
      match a with
      | ⟨0, _⟩ => exact lhs_as_0 _ _
      | ⟨1, _⟩ => exact (lhs_as_1 _ _).trans hl)
  have er : dot_S400x10000_S10000x64_S400x64_1_0_0_1_n_n.rhsIdx (ix2 p q) ((contrEquiv1 dot_S400x10000_S10000x64_S400x64_1_0_0_1_n_n 10000 rfl rfl).symm l) = ix2 l q :=
    funext fun a => Fin.ext (by
      match a with
      | ⟨0, _⟩ => exact (rhs_as_0 _ _).trans hl
      | ⟨1, _⟩ => exact rhs_as_1 _ _)
  rw [el, er]

/-! ## A block of hidden rows times the second weights: [400, 64] · [64, 64] -/

/-- The left operand's row coordinate is the result's row. -/
theorem lhs_hw_0 (i : S400x64.Idx) (q : dot_S400x64_S64x64_S400x64_1_0_0_1_n_n.contr.Idx) :
    (dot_S400x64_S64x64_S400x64_1_0_0_1_n_n.lhsIdx i q 0).val = (i 0).val := by
  unfold DotDims.lhsIdx
  rw [dif_neg (show ¬(0 : Fin S400x64.rank) ∈ dot_S400x64_S64x64_S400x64_1_0_0_1_n_n.lhsBatch by decide),
    dif_pos (show (0 : Fin S400x64.rank) ∈ dot_S400x64_S64x64_S400x64_1_0_0_1_n_n.lhsNonContracting by decide)]
  rfl
/-- The left operand's column coordinate is the contraction coordinate. -/
theorem lhs_hw_1 (i : S400x64.Idx) (q : dot_S400x64_S64x64_S400x64_1_0_0_1_n_n.contr.Idx) :
    (dot_S400x64_S64x64_S400x64_1_0_0_1_n_n.lhsIdx i q 1).val = (q ⟨0, by decide⟩).val :=
  dot_S400x64_S64x64_S400x64_1_0_0_1_n_n.lhsIdx_val_of_single rfl i q
/-- The right operand's row coordinate is the contraction coordinate. -/
theorem rhs_hw_0 (i : S400x64.Idx) (q : dot_S400x64_S64x64_S400x64_1_0_0_1_n_n.contr.Idx) :
    (dot_S400x64_S64x64_S400x64_1_0_0_1_n_n.rhsIdx i q 0).val = (q ⟨0, by decide⟩).val :=
  dot_S400x64_S64x64_S400x64_1_0_0_1_n_n.rhsIdx_val_of_single rfl i q
/-- The right operand's column coordinate is the result's column. -/
theorem rhs_hw_1 (i : S400x64.Idx) (q : dot_S400x64_S64x64_S400x64_1_0_0_1_n_n.contr.Idx) :
    (dot_S400x64_S64x64_S400x64_1_0_0_1_n_n.rhsIdx i q 1).val = (i 1).val := by
  unfold DotDims.rhsIdx
  rw [dif_neg (show ¬(1 : Fin S64x64.rank) ∈ dot_S400x64_S64x64_S400x64_1_0_0_1_n_n.rhsBatch by decide),
    dif_pos (show (1 : Fin S64x64.rank) ∈ dot_S400x64_S64x64_S400x64_1_0_0_1_n_n.rhsNonContracting by decide)]
  rfl

/-- The product into the zero accumulator, at (p, q): the sum over the 64 contraction coordinates. -/
theorem matmul_hw_apply (u : FVec Ideal S400x64 .f32) (v : FVec Ideal S64x64 .f32) (p : Fin 400) (q : Fin 64) :
    matmul dot_S400x64_S64x64_S400x64_1_0_0_1_n_n none u v (constant (F := Ideal) S400x64 .f32 0x00000000#32) (ix2 p q)
      = ∑ l : Fin 64, u (ix2 p l) * v (ix2 l q) := by
  simp only [matmul]
  rw [Ideal.matmul_constant_zero_apply,
    ← Equiv.sum_comp (contrEquiv1 dot_S400x64_S64x64_S400x64_1_0_0_1_n_n 64 rfl rfl).symm]
  refine Finset.sum_congr rfl fun l _ => ?_
  have hl := contrEquiv1_symm_val dot_S400x64_S64x64_S400x64_1_0_0_1_n_n 64 rfl rfl l
  have el : dot_S400x64_S64x64_S400x64_1_0_0_1_n_n.lhsIdx (ix2 p q) ((contrEquiv1 dot_S400x64_S64x64_S400x64_1_0_0_1_n_n 64 rfl rfl).symm l) = ix2 p l :=
    funext fun a => Fin.ext (by
      match a with
      | ⟨0, _⟩ => exact lhs_hw_0 _ _
      | ⟨1, _⟩ => exact (lhs_hw_1 _ _).trans hl)
  have er : dot_S400x64_S64x64_S400x64_1_0_0_1_n_n.rhsIdx (ix2 p q) ((contrEquiv1 dot_S400x64_S64x64_S400x64_1_0_0_1_n_n 64 rfl rfl).symm l) = ix2 l q :=
    funext fun a => Fin.ext (by
      match a with
      | ⟨0, _⟩ => exact (rhs_hw_0 _ _).trans hl
      | ⟨1, _⟩ => exact rhs_hw_1 _ _)
  rw [el, er]

/-! ## The keepdims column: [a] made [a, 1], and [a, 1] broadcast over the columns -/

section Column
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The lane reductions of a [400, 64] block, at a row -/

/-- Over row `p`, the index with lane coordinate `k` inserted is `(p, k)`. -/
theorem lift_row (h : S400x64.Reduces [1] S400) (p : Fin 400) (k : Fin 64) : h.lift (ix1 p) k = ix2 p k :=
  funext fun c => Fin.ext (by
    match c with
    | ⟨0, _⟩ => rfl
    | ⟨1, _⟩ => rfl)

/-- The bit pattern of f32's -∞ is `⊥`. -/
theorem ofBits_negInf_f32 : Ideal.ofBits .f32 0xFF800000#32 = ⊥ := by simp [Ideal.ofBits, Ideal.ieee]

/-- A lane sum from zero, at row `p`: the sum over the row. -/
theorem laneSum_apply (v : FVec Ideal S400x64 .f32) (p : Fin 400) :
    multiReduction (F := Ideal) .add [1] S400 v 0x00000000#32 reduces_S400x64_S400 (.inl rfl) rfl (ix1 p)
      = ∑ k : Fin 64, v (ix2 p k) :=
  (Ideal.multiReduction_add_single v 0x00000000#32 reduces_S400x64_S400 (.inl rfl) rfl (ix1 p)).trans
    (Finset.sum_congr rfl fun k _ => congrArg v (lift_row _ p k))

/-- A lane maximum from -∞, at row `p`: the fold of `max` from `⊥` over the row. -/
theorem laneMax_apply (v : FVec Ideal S400x64 .f32) (p : Fin 400) :
    multiReduction (F := Ideal) .maximumf [1] S400 v 0xFF800000#32 reduces_S400x64_S400 (.inl rfl) rfl (ix1 p)
      = Finset.univ.fold max ⊥ (fun k : Fin 64 => v (ix2 p k)) :=
  (Ideal.multiReduction_maximumf_single v 0xFF800000#32 reduces_S400x64_S400 (.inl rfl) rfl (ix1 p)).trans
    (congrArg₂ (Finset.univ.fold max) ofBits_negInf_f32 (funext fun k => congrArg v (lift_row _ p k)))

/-! ## The aggregation with its bias -/

/-- The block `a · s + b` as the kernel builds it: the product into zero plus the bias row broadcast over the rows. -/
def agg (a : FVec Ideal S400x10000 .f32) (s : FVec Ideal S10000x64 .f32) (b : FVec Ideal S1x64 .f32) : FVec Ideal S400x64 .f32 :=
  addf (matmul dot_S400x10000_S10000x64_S400x64_1_0_0_1_n_n none a s (constant (F := Ideal) S400x64 .f32 0x00000000#32))
    (broadcastTo S400x64 (shapeCast S1x64 b shapeCasts_S1x64_S1x64) broadcasts_S1x64_S400x64)

/-- At (p, k): row p of `a` against column k of `s`, plus the bias at k. -/
theorem agg_apply (a : FVec Ideal S400x10000 .f32) (s : FVec Ideal S10000x64 .f32) (b : FVec Ideal S1x64 .f32)
    (p : Fin 400) (k : Fin 64) :
    agg a s b (ix2 p k) = (∑ l : Fin 10000, a (ix2 p l) * s (ix2 l k)) + b (ix2 (0 : Fin 1) k) := by
  unfold agg
  refine (addf_apply _ _ _).trans ?_
  rw [matmul_as_apply, shapeCast_self, broadcastTo_1b_ab_apply]

/-! ## The second stored value: the rectified aggregation times the second weights -/

theorem pay2_apply (a : Vec Ideal S400x10000 .f32) (s : Vec Ideal S10000x64 .f32) (b : Vec Ideal S1x64 .f32)
    (w2 : Vec Ideal S64x64 .f32) (p : Fin 400) (j : Fin 64) :
    k0_pay2 (F := Ideal) a s b w2 (ix2 p j)
      = ∑ k : Fin 64, max ((∑ l : Fin 10000, a (ix2 p l) * s (ix2 l k)) + b (ix2 (0 : Fin 1) k)) 0 * w2 (ix2 k j) := by
  unfold k0_pay2
  rw [shapeCast_self]
  refine (matmul_hw_apply _ w2 p j).trans ?_
  refine Finset.sum_congr rfl fun k _ => ?_
  refine congrArg (· * w2 (ix2 k j)) ?_
  exact congrArg₂ max (agg_apply a s b p k) Ideal.ofBits_zero_f32

/-! ## The row-wise log-softmax as the kernel computes it -/

/-- The rows' maxima, kept as a [400, 1] column. -/
def rowMaxCol (t : FVec Ideal S400x64 .f32) : FVec Ideal S400x1 .f32 :=
  shapeCast S400x1 (multiReduction (F := Ideal) .maximumf [1] S400 t 0xFF800000#32 reduces_S400x64_S400 (.inl rfl) rfl)
    shapeCasts_S400_S400x1

/-- At row `p`: the maximum of the row, from `⊥`. -/
theorem rowMaxCol_apply (t : FVec Ideal S400x64 .f32) (p : Fin 400) (u : Fin 1) :
    rowMaxCol t (ix2 p u) = Cert.GcnSpec.rowMax (fun j' : Fin 64 => t (ix2 p j')) := by
  unfold rowMaxCol
  rw [shapeCast_a_a1_apply]
  exact laneMax_apply t p

/-- The rows' sums of the exponentials of the entries less the row's maximum, kept as a [400, 1] column. -/
def sumExpCol (t : FVec Ideal S400x64 .f32) : FVec Ideal S400x1 .f32 :=
  shapeCast S400x1 (multiReduction (F := Ideal) .add [1] S400
      (exp (subf t (broadcastTo S400x64 (rowMaxCol t) broadcasts_S400x1_S400x64)))
      0x00000000#32 reduces_S400x64_S400 (.inl rfl) rfl)
    shapeCasts_S400_S400x1

/-- At row `p`: the sum over the row of `exp (entry − the row's maximum)`. -/
theorem sumExpCol_apply (t : FVec Ideal S400x64 .f32) (p : Fin 400) (u : Fin 1) :
    sumExpCol t (ix2 p u) = Cert.GcnSpec.sumExp (fun j' : Fin 64 => t (ix2 p j')) := by
  unfold sumExpCol
  rw [shapeCast_a_a1_apply]
  refine (laneSum_apply _ p).trans ?_
  unfold Cert.GcnSpec.sumExp
  refine Finset.sum_congr rfl fun k _ => ?_
  show Ideal.exp (t (ix2 p k) - broadcastTo S400x64 (rowMaxCol t) broadcasts_S400x1_S400x64 (ix2 p k)) = _
  rw [broadcastTo_a1_ab_apply, rowMaxCol_apply]

/-! ## The third stored value: the log-softmax of the aggregation's rows, the log-sum-exp subtracted from the unshifted score -/

theorem pay3_apply (a : Vec Ideal S400x10000 .f32) (s : Vec Ideal S10000x64 .f32) (b : Vec Ideal S1x64 .f32)
    (p : Fin 400) (j : Fin 64) :
    k0_pay3 (F := Ideal) a s b (ix2 p j)
      = Cert.GcnSpec.lsmDirect
          (fun j' : Fin 64 => (∑ l : Fin 10000, a (ix2 p l) * s (ix2 l j')) + b (ix2 (0 : Fin 1) j')) j := by
  have ho : (fun j' : Fin 64 => agg a s b (ix2 p j'))
      = fun j' : Fin 64 => (∑ l : Fin 10000, a (ix2 p l) * s (ix2 l j')) + b (ix2 (0 : Fin 1) j') :=
    funext fun j' => agg_apply a s b p j'
  rw [← ho]
  show subf (agg a s b)
      (broadcastTo S400x64 (addf (log (sumExpCol (agg a s b))) (rowMaxCol (agg a s b))) broadcasts_S400x1_S400x64)
      (ix2 p j) = _
  refine (subf_apply _ _ _).trans ?_
  unfold Cert.GcnSpec.lsmDirect
  refine congrArg (agg a s b (ix2 p j) - ·) ?_
  rw [broadcastTo_a1_ab_apply]
  refine (addf_apply _ _ _).trans ?_
  exact congrArg₂ (· + ·) (congrArg Ideal.log (sumExpCol_apply _ p 0)) (rowMaxCol_apply _ p 0)

end Cert.KernelIdeal.Payloads

end
-- ==== Proof.TwoPassIdeal.KernelValue.lean ====
/-
  The two-pass kernel's value at the ideal instance: after the run the result array is the specification's result,
  in the direct arrangement, of the six argument arrays.

  Each window's block is read where its rectangle lies in its array: the features and both weight matrices are whole
  arrays at every position; the adjacency panel at position t is rows [400 (t mod 25), 400 (t mod 25) + 400) of the
  adjacency; each bias is its argument vector laid out as one row (entry k of the row is entry k of the vector).
  Then the buffers, entry by entry: the first scratch is x · W1; the 400 rows the first pass stores at position t
  are rows 400 (t mod 25) + p of (rectified (adj · (x · W1) + b1)) · W2, so the second scratch, whose row r is row
  r mod 400 of what position r / 400 stored, is that matrix; the block a position t ≥ 25 of the second pass stores
  is rows 400 (t − 25) + p of the log-softmax of adj · (second scratch) + b2, the subtraction written against the
  unshifted score. The result array is written back exactly at the positions 25 … 49, position t at block t − 25,
  and those 25 blocks of 400 rows cover its 10000 rows (row r by position 25 + r / 400), so it ends holding that
  function of the arguments everywhere.
-/
import proofs.«168079_g83657372991743_cont_sun_c4_273_4_alg».proof.Proof.TwoPassIdeal.Data
import proofs.«168079_g83657372991743_cont_sun_c4_273_4_alg».proof.Proof.KernelPayloads
import proofs.«168079_g83657372991743_cont_sun_c4_273_4_alg».proof.Proof.GcnSpec
import Idealize.ShloMosaic.Lib.Pipeline.Value
import Idealize.ShloMosaic.Lib.StableHlo.Run
import Idealize.ShloMosaic.Lib.ValueIdx
import Idealize.ShloMosaic.Lib.Tactic

set_option maxRecDepth 16384

noncomputable section

namespace Cert.KernelIdeal.TwoPass

open scoped BigOperators
open Idealize.ShloMosaic Idealize.ShloMosaic.ValueIdx Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-! ## Where each window's block sits in its array -/

theorem index0 : ∀ t : Fin cfg0.N, win0_0.index t = ![0, 0] := (by decide +kernel : ∀ t : Fin grid0.N, win0_0.index t = ![0, 0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])

/-! ## The blocks a position reads, as entries of the argument arrays -/

/-- The features' window is the whole array at every position. -/
theorem blk0_eq (c : Dev nD) (t : Fin cfg0.N) :
    blk0 m c t = (m ((c.tc : Thread nD τ).loc main_arg0) : S10000x128.Idx → EReal) := by
  funext y
  show iblk m c 0 t y = _
  unfold iblk
  rw [View.read_apply]
  show V m c main_arg0 _ = _
  rw [V_main_arg0]
  congr 1
  funext a
  apply Fin.ext
  match a with
  | ⟨0, _⟩ => show win0_0.index t 0 * 10000 + 1 * (y 0).val = (y 0).val; rw [index0 t]; simp
  | ⟨1, _⟩ => show win0_0.index t 1 * 128 + 1 * (y 1).val = (y 1).val; rw [index0 t]; simp

/-- Row p of the adjacency panel at position t is row 400 (t mod 25) + p of the adjacency. -/
theorem blk1_apply (c : Dev nD) (t : Fin cfg0.N) (p : Fin 400) (l : Fin 10000) (r : Fin 10000)
    (hr : r.val = 400 * (t.val % 25) + p.val) :
    blk1 m c t (ix2 p l) = (m ((c.tc : Thread nD τ).loc main_arg1) : S10000x10000.Idx → EReal) (ix2 r l) := by
  show iblk m c 1 t (ix2 p l) = _
  unfold iblk
  rw [View.read_apply]
  show V m c main_arg1 _ = _
  rw [V_main_arg1]
  congr 1
  funext a
  apply Fin.ext
  match a with
  | ⟨0, _⟩ => show win0_1.index t 0 * 400 + 1 * p.val = r.val; rw [index1 t, hr]; simp; omega
  | ⟨1, _⟩ => show win0_1.index t 1 * 10000 + 1 * l.val = l.val; rw [index1 t]; simp

/-- The first weights' window is the whole array. -/
theorem blk2_eq (c : Dev nD) (t : Fin cfg0.N) :
    blk2 m c t = (m ((c.tc : Thread nD τ).loc main_arg2) : S128x64.Idx → EReal) := by
  funext y
  show iblk m c 2 t y = _
  unfold iblk
  rw [View.read_apply]
  show V m c main_arg2 _ = _
  rw [V_main_arg2]
  congr 1
  funext a
  apply Fin.ext
  match a with
  | ⟨0, _⟩ => show win0_2.index t 0 * 128 + 1 * (y 0).val = (y 0).val; rw [index2 t]; simp
  | ⟨1, _⟩ => show win0_2.index t 1 * 64 + 1 * (y 1).val = (y 1).val; rw [index2 t]; simp

/-- The second weights' window is the whole array. -/
theorem blk4_eq (c : Dev nD) (t : Fin cfg0.N) :
    blk4 m c t = (m ((c.tc : Thread nD τ).loc main_arg4) : S64x64.Idx → EReal) := by
  funext y
  show iblk m c 4 t y = _
  unfold iblk
  rw [View.read_apply]
  show V m c main_arg4 _ = _
  rw [V_main_arg4]
  congr 1
  funext a
  apply Fin.ext
  match a with
  | ⟨0, _⟩ => show win0_4.index t 0 * 64 + 1 * (y 0).val = (y 0).val; rw [index4 t]; simp
  | ⟨1, _⟩ => show win0_4.index t 1 * 64 + 1 * (y 1).val = (y 1).val; rw [index4 t]; simp

/-- The first bias as the region finds it: the argument vector laid out as one row. -/
theorem V_main_v0 (c : Dev nD) :
    (V m c main_v0 : S1x64.Idx → EReal)
      = shapeCast S1x64 (m ((c.tc : Thread nD τ).loc main_arg3) : S64.Idx → EReal) shapeCasts_S64_S1x64 := by
  dsimp only [Gen.V, Gen.hostOps0]
  after_results
  rfl

/-- The second bias as the region finds it: the argument vector laid out as one row. -/
theorem V_main_v1 (c : Dev nD) :
    (V m c main_v1 : S1x64.Idx → EReal)
      = shapeCast S1x64 (m ((c.tc : Thread nD τ).loc main_arg5) : S64.Idx → EReal) shapeCasts_S64_S1x64 := by
  dsimp only [Gen.V, Gen.hostOps0]
  after_results
  rfl

/-- The first bias's window: entry k of the one row is entry k of the argument vector. -/
theorem blk3_apply (c : Dev nD) (t : Fin cfg0.N) (k : Fin 64) :
    blk3 m c t (ix2 (0 : Fin 1) k) = (m ((c.tc : Thread nD τ).loc main_arg3) : S64.Idx → EReal) (ix1 k) := by
  show iblk m c 3 t (ix2 (0 : Fin 1) k) = _
  unfold iblk
  rw [View.read_apply]
  show V m c main_v0 _ = _
  rw [V_main_v0]
  refine shapeCast_apply _ _ _ (ix1 k) ?_
  rw [Shape.rowMajor_val_two, Shape.rowMajor_val_one]
  show k.val = (win0_3.index t 0 * 1 + 1 * 0) * 64 + (win0_3.index t 1 * 64 + 1 * k.val)
  rw [index3 t]
  simp

/-- The second bias's window, likewise. -/
theorem blk5_apply (c : Dev nD) (t : Fin cfg0.N) (k : Fin 64) :
    blk5 m c t (ix2 (0 : Fin 1) k) = (m ((c.tc : Thread nD τ).loc main_arg5) : S64.Idx → EReal) (ix1 k) := by
  show iblk m c 5 t (ix2 (0 : Fin 1) k) = _
  unfold iblk
  rw [View.read_apply]
  show V m c main_v1 _ = _
  rw [V_main_v1]
  refine shapeCast_apply _ _ _ (ix1 k) ?_
  rw [Shape.rowMajor_val_two, Shape.rowMajor_val_one]
  show k.val = (win0_5.index t 0 * 1 + 1 * 0) * 64 + (win0_5.index t 1 * 64 + 1 * k.val)
  rw [index5 t]
  simp

/-! ## The stored values against the specification, over any operands that read as the specification's -/

section values

open Cert.GcnSpec

variable (x : SX.Idx → EReal) (adj : SA.Idx → EReal) (W1 : SW1.Idx → EReal) (b1 : SB.Idx → EReal)
  (W2 : SW2.Idx → EReal) (b2 : SB.Idx → EReal)

/-- The second stored value, at row p of a panel whose row p is row r of the adjacency, over a first scratch that is
    x · W1: entry (r, j) of the projected hidden layer. -/
theorem pay2_value (a : Vec Ideal S400x10000 .f32) (s : Vec Ideal S10000x64 .f32) (b : Vec Ideal S1x64 .f32)
    (w2 : Vec Ideal S64x64 .f32) (p : Fin 400) (r : Fin 10000)
    (ha : ∀ l, a (ix2 p l) = adj (ix2 r l)) (hs : ∀ l k, s (ix2 l k) = support x W1 l k)
    (hb : ∀ k, b (ix2 (0 : Fin 1) k) = b1 (ix1 k)) (hw : ∀ k j, w2 (ix2 k j) = W2 (ix2 k j)) (j : Fin 64) :
    k0_pay2 (F := Ideal) a s b w2 (ix2 p j) = project (Cert.GcnSpec.hidden adj (support x W1) b1) W2 r j := by
  rw [Payloads.pay2_apply]
  unfold project Cert.GcnSpec.hidden
  simp only [ha, hs, hb, hw]

/-- The third stored value, at row p of a panel whose row p is row r of the adjacency, over a second scratch that is
    the projected hidden layer: entry (r, j) of the result in the direct arrangement. -/
theorem pay3_value (a : Vec Ideal S400x10000 .f32) (s : Vec Ideal S10000x64 .f32) (b : Vec Ideal S1x64 .f32)
    (p : Fin 400) (r : Fin 10000)
    (ha : ∀ l, a (ix2 p l) = adj (ix2 r l))
    (hs : ∀ l j, s (ix2 l j) = project (Cert.GcnSpec.hidden adj (support x W1) b1) W2 l j)
    (hb : ∀ k, b (ix2 (0 : Fin 1) k) = b2 (ix1 k)) (j : Fin 64) :
    k0_pay3 (F := Ideal) a s b (ix2 p j) = outDirect x adj W1 b1 W2 b2 (ix2 r j) := by
  rw [Payloads.pay3_apply]
  show lsmDirect _ j = lsmDirect (scores x adj W1 b1 W2 b2 r) j
  congr 1
  funext j'
  unfold scores logits
  simp only [ha, hs, hb]

end values

/-! ## What the buffers hold, against the specification -/

/-- The first scratch is x · W1. -/
theorem firstScratch_apply (c : Dev nD) (r : Fin 10000) (k : Fin 64) :
    firstScratch m c (ix2 r k)
      = Cert.GcnSpec.support (m ((c.tc : Thread nD τ).loc main_arg0)) (m ((c.tc : Thread nD τ).loc main_arg2)) r k := by
  unfold firstScratch
  rw [blk0_eq, blk2_eq]
  exact Payloads.pay1_apply _ _ r k

/-- The rows the first pass stores at position t: rows 400 (t mod 25) + p of the projected hidden layer. -/
theorem aggBlock_apply (c : Dev nD) (t : Fin cfg0.N) (p : Fin 400) (j : Fin 64) (r : Fin 10000)
    (hr : r.val = 400 * (t.val % 25) + p.val) :
    aggBlock m c t (ix2 p j)
      = Cert.GcnSpec.project (Cert.GcnSpec.hidden (m ((c.tc : Thread nD τ).loc main_arg1))
          (Cert.GcnSpec.support (m ((c.tc : Thread nD τ).loc main_arg0)) (m ((c.tc : Thread nD τ).loc main_arg2)))
          (m ((c.tc : Thread nD τ).loc main_arg3))) (m ((c.tc : Thread nD τ).loc main_arg4)) r j := by
  unfold aggBlock
  exact pay2_value _ _ _ _ _ _ _ _ _ p r (fun l => blk1_apply m c t p l r hr) (firstScratch_apply m c)
    (blk3_apply m c t) (fun k j => by rw [blk4_eq]) j

/-- The second scratch once the first pass is over is the projected hidden layer. -/
theorem secondScratch_apply (c : Dev nD) (r : Fin 10000) (j : Fin 64) :
    secondScratch m c (ix2 r j)
      = Cert.GcnSpec.project (Cert.GcnSpec.hidden (m ((c.tc : Thread nD τ).loc main_arg1))
          (Cert.GcnSpec.support (m ((c.tc : Thread nD τ).loc main_arg0)) (m ((c.tc : Thread nD τ).loc main_arg2)))
          (m ((c.tc : Thread nD τ).loc main_arg3))) (m ((c.tc : Thread nD τ).loc main_arg4)) r j := by
  unfold secondScratch
  refine aggBlock_apply m c _ _ j r ?_
  show r.val = 400 * (r.val / 400 % 25) + r.val % 400
  have h := r.isLt
  omega

/-- The output block a position t of the second pass stores: rows 400 (t − 25) + p of the result. -/
theorem outBlock_apply (c : Dev nD) (t : Fin cfg0.N) (ht : 25 ≤ t.val) (p : Fin 400) (j : Fin 64) (r : Fin 10000)
    (hr : r.val = 400 * (t.val - 25) + p.val) :
    outBlock m c t (ix2 p j)
      = Cert.GcnSpec.outDirect (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) (ix2 r j) := by
  unfold outBlock
  refine pay3_value _ _ _ _ _ _ _ _ _ p r (fun l => blk1_apply m c t p l r ?_) (secondScratch_apply m c)
    (blk5_apply m c t) j
  have h := t.isLt
  have hN : cfg0.N = 50 := N_eq
  omega

/-! ## From the blocks to the array -/

/-- The output block of a position of the second pass, entry by entry of the result array. -/
theorem outBlock_point (c : Dev nD) (t : Fin cfg0.N) (ht : 25 ≤ t.val) (y : S400x64.Idx) (i : S10000x64.Idx)
    (h0 : (i 0).val = 400 * (t.val - 25) + (y 0).val) (h1 : (i 1).val = (y 1).val) :
    outBlock m c t y
      = Cert.GcnSpec.outDirect (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) i := by
  obtain ⟨p, j, rfl⟩ : ∃ p j, y = ix2 p j := ⟨y 0, y 1, eq_ix2 y⟩
  obtain ⟨r, j', rfl⟩ : ∃ r j', i = ix2 r j' := ⟨i 0, i 1, eq_ix2 i⟩
  obtain rfl : j' = j := Fin.ext h1
  exact outBlock_apply m c t ht p j' r h0

/-- What a position of the second pass writes back is its block of the result. -/
theorem flushed6_eq (c : Dev nD) (t : Fin cfg0.N) (hf : (cfg0.win 6).flush t = true) :
    (dats m 0 c).flushed 6 t = ((cfg0.win 6).blk t).view.read (Elt Ideal)
      (Cert.GcnSpec.outDirect (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))) := by
  have ht : 25 ≤ t.val := (flush6_iff t).1 hf
  show (cfg0.win 6).cut (grid0.coords t) ((dats m 0 c).after 6 t) = _
  rw [after_6]
  funext y
  rw [View.read_apply]
  refine outBlock_point m c t ht _ _ ?_ ?_
  · show win0_6.index t 0 * 400 + 1 * (y 0).val = 400 * (t.val - 25) + (y 0).val
    rw [index6 t ht]
    simp only [Matrix.cons_val_zero]
    omega
  · show win0_6.index t 1 * 64 + 1 * (y 1).val = (y 1).val
    rw [index6 t ht]
    simp

/-- An index of the result array lies in position t's block iff each coordinate is in the block's range on its axis. -/
theorem mem_blk6 (t : Fin cfg0.N) (i : S10000x64.Idx) :
    i ∈ ((cfg0.win 6).blk t).view.set ↔ ∀ a : Fin 2, win0_6.index t a * S400x64.size a ≤ (i a).val ∧ (i a).val < win0_6.index t a * S400x64.size a + S400x64.size a := by
  show i ∈ ((View.whole main_v2).slice (win0_6.rect t)).set ↔ _
  rw [View.set_slice_whole, Rect.mem_set_unit]
  exact Iff.rfl

/-- Row r of the result is written back at position 25 + r / 400. -/
theorem cover6 (i : S10000x64.Idx) : ∃ t : Fin cfg0.N, (cfg0.win 6).flush t = true ∧ i ∈ ((cfg0.win 6).blk t).view.set := by
  have hi : (i 0).val < 10000 := (i 0).isLt
  have hj : (i 1).val < 64 := (i 1).isLt
  have hN : cfg0.N = 50 := N_eq
  obtain ⟨t, hte⟩ : ∃ t : Fin cfg0.N, t.val = 25 + (i 0).val / 400 := ⟨⟨25 + (i 0).val / 400, by omega⟩, rfl⟩
  have ht : 25 ≤ t.val := by omega
  refine ⟨t, (flush6_iff t).2 ht, ?_⟩
  rw [mem_blk6]
  intro a
  match a with
  | ⟨0, _⟩ =>
    show win0_6.index t 0 * 400 ≤ (i 0).val ∧ (i 0).val < win0_6.index t 0 * 400 + 400
    rw [index6 t ht]
    simp only [Matrix.cons_val_zero]
    omega
  | ⟨1, _⟩ =>
    show win0_6.index t 1 * 64 ≤ (i 1).val ∧ (i 1).val < win0_6.index t 1 * 64 + 64
    rw [index6 t ht]
    simp only [Matrix.cons_val_one, Matrix.head_cons, Matrix.cons_val_fin_one]
    omega

/-- THE RESULT ARRAY after the run is the specification's result, in the direct arrangement, of the argument arrays. -/
theorem final_out (m : (ℓ : Loc nD τ sig) → Buf (Elt Ideal) ℓ) (c : Dev nD) :
    (dats (F := Ideal) m 0 c).arrAt 6 cfg0.N
      = Cert.GcnSpec.outDirect (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (dats m 0 c).arrAt_eq_of_cover 6 _ (fun t hf => flushed6_eq m c t hf) cover6

/-- The run, read: from a run to the pipeline's post, the result array at the specification's result and the six
    argument arrays unchanged. -/
theorem run_outDirect_of (m : (ℓ : Loc nD τ sig) → Buf (Elt Ideal) ℓ) (ρ : Dev nD → PrngReg)
    (h : θ_run (Cert.KernelIdeal.defs (F := Ideal)) (onTc (τ := τ) (main (F := Ideal))) (s₀ m ρ) (Pipeline.FramePost cfgs (dats m) 0 (V m))) :
    θ_run (Cert.KernelIdeal.defs (F := Ideal)) (onTc (τ := τ) (main (F := Ideal))) ⟨m, fun _ => 0, ρ⟩ (fun r => ∀ c : Dev nD,
      r.2.mem ((c.tc : Thread nD τ).loc main_v2) = Cert.GcnSpec.outDirect (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (final_out m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩) h

end Cert.KernelIdeal.TwoPass

end
-- ==== Proof.ReferenceValue.lean ====
/-
  The reference program's run, with its result named as the specification's function of the six argument arrays.

  The reference computes, stage by stage, x · W1, adj · (x · W1) + b1, the rectifier, · W2, adj · (…) + b2, and then
  jax's log-softmax of each row: the row's maximum folded from -∞ and joined once more with -∞, the shifted scores,
  their exponentials summed from 0, the logarithm of that sum, and the difference. Read at an index (r, j) each stage
  is the specification's function of the same name; `max ⊥ m = m` and `0 + s = s` are the two steps that join jax's
  spelling of the log-softmax to the specification's shifted arrangement.
-/
import proofs.«168079_g83657372991743_cont_sun_c4_273_4_alg».proof.Proof.ReferenceRunCopy
import proofs.«168079_g83657372991743_cont_sun_c4_273_4_alg».proof.Proof.ReferenceReadCopy
import proofs.«168079_g83657372991743_cont_sun_c4_273_4_alg».proof.Proof.GcnSpec
import proofs.«168079_g83657372991743_cont_sun_c4_273_4_alg».proof.Defs
import Idealize.ShloMosaic.Lib.ValueIdx
import Idealize.ShloMosaic.Lib.Pipeline.Value
import Idealize.ShloMosaic.PureOps.Ideal.Laws
import Idealize.ShloMosaic.PureOps.Reduce
import Idealize.ShloMosaic.Lib.StableHlo.Run

noncomputable section

open scoped BigOperators
open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.ReadCopy Cert.GcnSpec

namespace Cert.ReferenceIdeal.RefValue

/-! ## The index functions of the stages, at (r, j) -/

theorem lidx0 (r : Fin 10000) (k : Fin 64) (l : Fin 128) : lidx_main_v0 (ix2 r k) l = ix2 r l :=
  funext fun a => Fin.ext (by match a with | ⟨0, _⟩ => rfl | ⟨1, _⟩ => rfl)
theorem ridx0 (r : Fin 10000) (k : Fin 64) (l : Fin 128) : ridx_main_v0 (ix2 r k) l = ix2 l k :=
  funext fun a => Fin.ext (by match a with | ⟨0, _⟩ => rfl | ⟨1, _⟩ => rfl)
theorem lidx1 (r : Fin 10000) (k : Fin 64) (l : Fin 10000) : lidx_main_v1 (ix2 r k) l = ix2 r l :=
  funext fun a => Fin.ext (by match a with | ⟨0, _⟩ => rfl | ⟨1, _⟩ => rfl)
theorem ridx1 (r : Fin 10000) (k : Fin 64) (l : Fin 10000) : ridx_main_v1 (ix2 r k) l = ix2 l k :=
  funext fun a => Fin.ext (by match a with | ⟨0, _⟩ => rfl | ⟨1, _⟩ => rfl)
theorem idx23 (r : Fin 10000) (k : Fin 64) : idx_main_v2 (idx_main_v3 (ix2 r k)) = ix1 k :=
  funext fun a => Fin.ext (by match a with | ⟨0, _⟩ => rfl)
theorem lidx6 (r : Fin 10000) (j : Fin 64) (k : Fin 64) : lidx_main_v6 (ix2 r j) k = ix2 r k :=
  funext fun a => Fin.ext (by match a with | ⟨0, _⟩ => rfl | ⟨1, _⟩ => rfl)
theorem ridx6 (r : Fin 10000) (j : Fin 64) (k : Fin 64) : ridx_main_v6 (ix2 r j) k = ix2 k j :=
  funext fun a => Fin.ext (by match a with | ⟨0, _⟩ => rfl | ⟨1, _⟩ => rfl)
theorem lidx7 (r : Fin 10000) (j : Fin 64) (l : Fin 10000) : lidx_main_v7 (ix2 r j) l = ix2 r l :=
  funext fun a => Fin.ext (by match a with | ⟨0, _⟩ => rfl | ⟨1, _⟩ => rfl)
theorem ridx7 (r : Fin 10000) (j : Fin 64) (l : Fin 10000) : ridx_main_v7 (ix2 r j) l = ix2 l j :=
  funext fun a => Fin.ext (by match a with | ⟨0, _⟩ => rfl | ⟨1, _⟩ => rfl)
theorem idx89 (r : Fin 10000) (j : Fin 64) : idx_main_v8 (idx_main_v9 (ix2 r j)) = ix1 j :=
  funext fun a => Fin.ext (by match a with | ⟨0, _⟩ => rfl)
theorem idx34 (r : Fin 10000) (j : Fin 64) : idx_main_call1_v3 (idx_main_call1_v4 (ix2 r j)) = ix1 r :=
  funext fun a => Fin.ext (by match a with | ⟨0, _⟩ => rfl)
theorem idx7810 (r : Fin 10000) (j : Fin 64) (k : Fin 64) :
    idx_main_call1_v7 (idx_main_call1_v8 (idx_main_call1_v10 (ix2 r j))) k = ix2 r k :=
  funext fun a => Fin.ext (by match a with | ⟨0, _⟩ => rfl | ⟨1, _⟩ => rfl)

/-- The f32 word of -∞ is the least extended real. -/
theorem ofBits_neg_inf : Ideal.ofBits .f32 0xFF800000#32 = (⊥ : EReal) := by simp [Ideal.ofBits, Ideal.ieee]

variable (x0 : (⟨S10000x128, .f32⟩ : BufTy).Contents (Elt Ideal)) (x1 : (⟨S10000x10000, .f32⟩ : BufTy).Contents (Elt Ideal))
  (x2 : (⟨S128x64, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))

/-! ## The stages, at (r, j) -/

/-- x · W1. -/
theorem stage_support (r : Fin 10000) (k : Fin 64) : val_main_v0 (F := Ideal) x0 x2 (ix2 r k) = support x0 x2 r k := by
  rw [val_main_v0_apply]
  simp only [lidx0, ridx0, support]

/-- The first aggregation, its bias, the rectifier. -/
theorem stage_hidden (r : Fin 10000) (k : Fin 64) :
    val_main_v5 (F := Ideal) x0 x1 x2 x3 (ix2 r k) = Cert.GcnSpec.hidden x1 (support x0 x2) x3 r k := by
  rw [val_main_v5_apply, val_main_v4_apply, val_main_v1_apply, val_main_v3_apply, val_main_v2_apply, val_main_call0_v0_apply,
    val_main_call0_cst_apply]
  simp only [lidx1, ridx1, idx23, stage_support, Cert.GcnSpec.hidden, Ideal.maximumf_def, Ideal.addf_def, Ideal.ofBits_def,
    Ideal.ofBits_zero_f32]

/-- · W2. -/
theorem stage_project (r : Fin 10000) (j : Fin 64) :
    val_main_v6 (F := Ideal) x0 x1 x2 x3 x4 (ix2 r j) = project (Cert.GcnSpec.hidden x1 (support x0 x2) x3) x4 r j := by
  rw [val_main_v6_apply]
  simp only [lidx6, ridx6, stage_hidden, project]

/-- The second aggregation and its bias: the scores. -/
theorem stage_scores (r : Fin 10000) (j : Fin 64) :
    val_main_v10 (F := Ideal) x0 x1 x2 x3 x4 x5 (ix2 r j) = scores x0 x1 x2 x3 x4 x5 r j := by
  rw [val_main_v10_apply, val_main_v7_apply, val_main_v9_apply, val_main_v8_apply]
  simp only [lidx7, ridx7, idx89, stage_project, scores, logits, Ideal.addf_def]

/-- The row's maximum: the fold of `max` from -∞ over the row, joined once more with -∞. -/
theorem stage_rowMax (r : Fin 10000) :
    val_main_call1_v2 (F := Ideal) x0 x1 x2 x3 x4 x5 (ix1 r) = rowMax (scores x0 x1 x2 x3 x4 x5 r) := by
  rw [val_main_call1_v2_apply, val_main_call1_v1_apply, val_main_call1_cst_0_apply]
  unfold val_main_call1_v0
  rw [Host.reduce_eq_fold_single FloatOps.maximumf _ _ reducesTo_S10000x64_S10000_d1 (by decide) h_S_ (ix1 r),
    val_main_call1_cst_apply]
  have hrow : (val_main_v10 (F := Ideal) x0 x1 x2 x3 x4 x5 ∘ (by decide : S10000x64.Reduces [1] S10000).lift (ix1 r))
      = scores x0 x1 x2 x3 x4 x5 r := by
    refine funext fun (k : Fin 64) => ?_
    have hk : (by decide : S10000x64.Reduces [1] S10000).lift (ix1 r) k = ix2 r k :=
      funext fun a => Fin.ext (by match a with | ⟨0, _⟩ => rfl | ⟨1, _⟩ => rfl)
    show val_main_v10 (F := Ideal) x0 x1 x2 x3 x4 x5 ((by decide : S10000x64.Reduces [1] S10000).lift (ix1 r) k) = _
    rw [hk, stage_scores]
  rw [hrow]
  show max (Ideal.ofBits .f32 0xFF800000#32) (Finset.univ.fold max (Ideal.ofBits .f32 0xFF800000#32) (scores x0 x1 x2 x3 x4 x5 r)) = _
  rw [ofBits_neg_inf, rowMax]
  exact max_eq_right bot_le

/-- The shifted score. -/
theorem stage_shifted (r : Fin 10000) (j : Fin 64) :
    val_main_call1_v5 (F := Ideal) x0 x1 x2 x3 x4 x5 (ix2 r j)
      = scores x0 x1 x2 x3 x4 x5 r j - rowMax (scores x0 x1 x2 x3 x4 x5 r) := by
  rw [val_main_call1_v5_apply, val_main_call1_v4_apply, val_main_call1_v3_apply]
  simp only [idx34, stage_rowMax, stage_scores, Ideal.subf_def]

/-- Its exponential. -/
theorem stage_exp (r : Fin 10000) (j : Fin 64) :
    val_main_call1_v6 (F := Ideal) x0 x1 x2 x3 x4 x5 (ix2 r j)
      = Ideal.exp (scores x0 x1 x2 x3 x4 x5 r j - rowMax (scores x0 x1 x2 x3 x4 x5 r)) := by
  rw [val_main_call1_v6_apply, stage_shifted, Ideal.hostUnary_exp_def]

/-- The result: the shifted score less the logarithm of the row's sum of exponentials, summed from 0. -/
theorem stage_out (r : Fin 10000) (j : Fin 64) :
    val_main_v11 (F := Ideal) x0 x1 x2 x3 x4 x5 (ix2 r j) = lsmShifted (scores x0 x1 x2 x3 x4 x5 r) j := by
  rw [val_main_v11_apply, val_main_call1_v10_apply, val_main_call1_v9_apply, val_main_call1_v8_apply, val_main_call1_v7_apply,
    val_main_call1_cst_1_apply]
  simp only [idx7810, stage_exp, stage_shifted, lsmShifted, sumExp, Ideal.subf_def, Ideal.hostUnary_log_def, Ideal.ofBits_def,
    Ideal.ofBits_zero_f32, zero_add]

/-- The reference's result, as one function of the six argument arrays, is the specification's shifted arrangement. -/
theorem result_eq : val_main_v11 (F := Ideal) x0 x1 x2 x3 x4 x5 = outShifted x0 x1 x2 x3 x4 x5 := by
  funext i
  obtain ⟨r, j, rfl⟩ : ∃ (r : Fin 10000) (j : Fin 64), i = ix2 r j := ⟨i 0, i 1, eq_ix2 i⟩
  exact stage_out x0 x1 x2 x3 x4 x5 r j

/-! ## The run -/

/-- Every weakly fair execution of the reference terminates with its result array at the specification's shifted
    arrangement of the argument arrays' launch contents, and the arguments unchanged. -/
theorem run_outShifted [Cert.ReferenceIdeal.Facts] (m' : (ℓ : Loc nD τ sig) → Buf (Elt Ideal) ℓ) (g' : Dev nD → PrngReg) :
    θ_run (Cert.ReferenceIdeal.defs (F := Ideal)) (onTc (τ := τ) (main (F := Ideal))) ⟨m', fun _ => 0, g'⟩ (fun r => ∀ c : Dev nD,
      r.2.mem ((c.tc : Thread nD τ).loc main_v11)
        = Cert.GcnSpec.outShifted (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)) :=
  (θ_run (Cert.ReferenceIdeal.defs (F := Ideal)) _ _).mono
    (fun _ h c => ⟨(h c).1.trans ((val_main_v11_eq (F := Ideal) m' c).trans (result_eq _ _ _ _ _ _)), (h c).2⟩)
    (Cert.ReferenceIdeal.RunCopy.run (F := Ideal) m' g')

/-- The reference runs and leaves its argument arrays unchanged. -/
theorem frame_ref [Cert.ReferenceIdeal.Facts] [Cert.Pre_finite_inputs.Facts] : Cert.frame_ReferenceIdeal :=
  fun m ρ _ => (θ_run (Cert.ReferenceIdeal.defs (F := Ideal)) _ _).mono (fun _ h c => (h c).2) (run_outShifted m ρ)

end Cert.ReferenceIdeal.RefValue

end
-- ==== Proof.GcnFinite.lean ====
/-
  Finiteness: on arrays of real numbers every intermediate quantity of the two-layer graph convolution is a real
  number, so the two arrangements of the log-softmax agree.

  An extended real is called real when it is the coercion of a real number. Reals are closed under addition,
  multiplication, the maximum of two, and finite sums; the maximum of a nonempty finite family of reals, folded
  from `-∞`, is real (it is below `+∞` because every member is, and above `-∞` because it bounds a member);
  the exponential of a real is the coercion of the real exponential, so a nonempty sum of such exponentials is
  the coercion of a POSITIVE real, and its logarithm is the coercion of the real logarithm. With a score `a`,
  the row maximum `m` and the logarithm `L` all real, `(a - m) - L = a - (L + m)` is an identity of real numbers.
-/
import proofs.«168079_g83657372991743_cont_sun_c4_273_4_alg».proof.Proof.GcnSpec
import Idealize.ShloMosaic.PureOps.Ideal
import Mathlib.Data.EReal.Basic
import Mathlib.Data.EReal.Operations
import Mathlib.Data.Finset.Fold
import Mathlib.Analysis.SpecialFunctions.Log.Basic

noncomputable section

open scoped BigOperators
open Idealize.ShloMosaic Idealize.ShloMosaic.ValueIdx

namespace Cert.GcnSpec

/-- An extended real that is the coercion of a real number. -/
def IsReal (a : EReal) : Prop := ∃ v : ℝ, a = (v : EReal)

theorem IsReal.zero : IsReal 0 := ⟨0, rfl⟩

theorem IsReal.add {a b : EReal} (ha : IsReal a) (hb : IsReal b) : IsReal (a + b) := by
  obtain ⟨u, rfl⟩ := ha
  obtain ⟨v, rfl⟩ := hb
  exact ⟨u + v, (EReal.coe_add u v).symm⟩

theorem IsReal.mul {a b : EReal} (ha : IsReal a) (hb : IsReal b) : IsReal (a * b) := by
  obtain ⟨u, rfl⟩ := ha
  obtain ⟨v, rfl⟩ := hb
  exact ⟨u * v, (EReal.coe_mul u v).symm⟩

/-- The maximum of two is one of the two. -/
theorem IsReal.max {a b : EReal} (ha : IsReal a) (hb : IsReal b) : IsReal (max a b) := by
  rcases le_total a b with h | h
  · rw [max_eq_right h]; exact hb
  · rw [max_eq_left h]; exact ha

/-- A finite sum of reals is real. -/
theorem IsReal.sum {ι : Type*} (s : Finset ι) (f : ι → EReal) (hf : ∀ i ∈ s, IsReal (f i)) :
    IsReal (∑ i ∈ s, f i) := by
  classical
  induction s using Finset.induction_on with
  | empty => simpa using IsReal.zero
  | insert a s ha ih =>
    rw [Finset.sum_insert ha]
    exact (hf a (Finset.mem_insert_self a s)).add (ih fun i hi => hf i (Finset.mem_insert_of_mem hi))

/-- The coercion commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- What is neither infinity is real. -/
theorem IsReal.of_ne {a : EReal} (hb : a ≠ ⊥) (ht : a ≠ ⊤) : IsReal a :=
  ⟨a.toReal, (EReal.coe_toReal ht hb).symm⟩

/-- The maximum of a nonempty finite family of reals, folded from `-∞`, is real. -/
theorem IsReal.fold_max {ι : Type*} (s : Finset ι) (o : ι → EReal) (i₀ : ι) (hi₀ : i₀ ∈ s)
    (ho : ∀ i ∈ s, IsReal (o i)) : IsReal (s.fold Max.max ⊥ o) := by
  apply IsReal.of_ne
  · obtain ⟨v, hv⟩ := ho i₀ hi₀
    have h : o i₀ ≤ s.fold Max.max ⊥ o := (Finset.le_fold_max _).2 (Or.inr ⟨i₀, hi₀, le_rfl⟩)
    intro hbot
    rw [hbot, hv] at h
    exact EReal.coe_ne_bot v (le_bot_iff.1 h)
  · apply ne_of_lt
    rw [Finset.fold_max_lt]
    refine ⟨bot_lt_top, fun i hi => ?_⟩
    obtain ⟨v, hv⟩ := ho i hi
    rw [hv]
    exact EReal.coe_lt_top v

/-! ### The layers -/

section layers

variable {x : SX.Idx → EReal} {adj : SA.Idx → EReal} {W1 : SW1.Idx → EReal} {b1 : SB.Idx → EReal}
  {W2 : SW2.Idx → EReal} {b2 : SB.Idx → EReal}

theorem support_isReal (hx : ∀ i, IsReal (x i)) (hW1 : ∀ i, IsReal (W1 i)) (r : Fin 10000) (k : Fin 64) :
    IsReal (support x W1 r k) :=
  IsReal.sum _ _ fun _ _ => (hx _).mul (hW1 _)

theorem hidden_isReal (hadj : ∀ i, IsReal (adj i)) {s : Fin 10000 → Fin 64 → EReal} (hs : ∀ r k, IsReal (s r k))
    (hb1 : ∀ i, IsReal (b1 i)) (r : Fin 10000) (k : Fin 64) : IsReal (hidden adj s b1 r k) :=
  ((IsReal.sum _ _ fun _ _ => (hadj _).mul (hs _ _)).add (hb1 _)).max IsReal.zero

theorem project_isReal {h : Fin 10000 → Fin 64 → EReal} (hh : ∀ r k, IsReal (h r k)) (hW2 : ∀ i, IsReal (W2 i))
    (r : Fin 10000) (j : Fin 64) : IsReal (project h W2 r j) :=
  IsReal.sum _ _ fun _ _ => (hh _ _).mul (hW2 _)

theorem logits_isReal (hadj : ∀ i, IsReal (adj i)) {p : Fin 10000 → Fin 64 → EReal} (hp : ∀ r j, IsReal (p r j))
    (hb2 : ∀ i, IsReal (b2 i)) (r : Fin 10000) (j : Fin 64) : IsReal (logits adj p b2 r j) :=
  (IsReal.sum _ _ fun _ _ => (hadj _).mul (hp _ _)).add (hb2 _)

theorem scores_isReal (hx : ∀ i, IsReal (x i)) (hadj : ∀ i, IsReal (adj i)) (hW1 : ∀ i, IsReal (W1 i))
    (hb1 : ∀ i, IsReal (b1 i)) (hW2 : ∀ i, IsReal (W2 i)) (hb2 : ∀ i, IsReal (b2 i)) (r : Fin 10000) (j : Fin 64) :
    IsReal (scores x adj W1 b1 W2 b2 r j) :=
  logits_isReal hadj
    (project_isReal (hidden_isReal hadj (support_isReal hx hW1) hb1) hW2) hb2 r j

end layers

/-! ### The log-softmax of a row of reals -/

/-- On a row of reals the two arrangements of the log-softmax are the same real number. -/
theorem lsmDirect_eq_lsmShifted (o : Fin 64 → EReal) (ho : ∀ j, IsReal (o j)) (j : Fin 64) :
    lsmDirect o j = lsmShifted o j := by
  -- the row's entries, and its maximum, as real numbers
  choose a ha using ho
  obtain ⟨m, hm⟩ : IsReal (rowMax o) :=
    IsReal.fold_max Finset.univ o 0 (Finset.mem_univ _) fun i _ => ⟨a i, ha i⟩
  -- the sum of the exponentials is the coercion of a positive real
  have hS : sumExp o = ((∑ i : Fin 64, Real.exp (a i - m) : ℝ) : EReal) := by
    unfold sumExp
    rw [coe_sum]
    refine Finset.sum_congr rfl fun i _ => ?_
    rw [hm, ha i, ← EReal.coe_sub, Ideal.exp_coe]
  have hpos : 0 < ∑ i : Fin 64, Real.exp (a i - m) :=
    Finset.sum_pos (fun i _ => Real.exp_pos _) ⟨0, Finset.mem_univ _⟩
  have hL : Ideal.log (sumExp o) = ((Real.log (∑ i : Fin 64, Real.exp (a i - m)) : ℝ) : EReal) := by
    rw [hS, Ideal.log_coe, if_neg (not_le.2 hpos)]
  unfold lsmDirect lsmShifted
  rw [hL, hm, ha j, ← EReal.coe_sub, ← EReal.coe_sub, ← EReal.coe_add, ← EReal.coe_sub]
  congr 1
  ring

/-- The two arrangements of the result agree when all six argument arrays hold real numbers. -/
theorem outDirect_eq_outShifted (x : SX.Idx → EReal) (adj : SA.Idx → EReal) (W1 : SW1.Idx → EReal) (b1 : SB.Idx → EReal) (W2 : SW2.Idx → EReal) (b2 : SB.Idx → EReal)
    (hx : ∀ i, ∃ v : ℝ, x i = (v : EReal)) (hadj : ∀ i, ∃ v : ℝ, adj i = (v : EReal)) (hW1 : ∀ i, ∃ v : ℝ, W1 i = (v : EReal))
    (hb1 : ∀ i, ∃ v : ℝ, b1 i = (v : EReal)) (hW2 : ∀ i, ∃ v : ℝ, W2 i = (v : EReal)) (hb2 : ∀ i, ∃ v : ℝ, b2 i = (v : EReal)) :
    outDirect x adj W1 b1 W2 b2 = outShifted x adj W1 b1 W2 b2 := by
  funext i
  exact lsmDirect_eq_lsmShifted _ (scores_isReal hx hadj hW1 hb1 hW2 hb2 (i 0)) (i 1)

end Cert.GcnSpec

end
-- ==== Proof.PreReal.lean ====
/-
  The precondition read back: when the printed predicate holds, every entry of the six argument arrays is a real number.

  The predicate is, per argument, "all entries satisfy |a| < +∞" (a reduction by `and` over all axes, from 1), the six
  joined by `and`. A conjunction of one-bit words is 1 exactly when both are; a reduction by `and` into a single
  result that is 1 met a 1 at every entry; the bit pattern 0x7F800000 denotes +∞; and on the extended reals
  `max a (-a) < +∞` fails at both infinities (there the maximum is +∞), so it leaves only the real numbers.
-/
import proofs.«168079_g83657372991743_cont_sun_c4_273_4_alg».proof.Pre_finite_inputs
import Idealize.ShloMosaic.Lib.ReduceAll
import Idealize.ShloMosaic.Lib.ValueIdx
import Idealize.ShloMosaic.PureOps.Ideal.Laws

noncomputable section

open Idealize.ShloMosaic Idealize.ShloMosaic.ValueIdx

namespace Cert.PreReal

open Cert.Pre_finite_inputs

/-- The result of a reduction over all axes has one index. -/
instance : Subsingleton S_.Idx := ⟨fun a b => funext fun d => d.elim0⟩

/-- The pattern `0x7F800000` is `+∞`. -/
theorem ofBits_inf : Ideal.ofBits .f32 0x7F800000#32 = (⊤ : EReal) := by
  simp [Ideal.ofBits, Ideal.ieee]

/-- `|a| < +∞` holds only of a real number: at either infinity `max a (-a) = +∞`. -/
theorem real_of_abs_lt_top (a : EReal) (h : Ideal.cmp .olt (max a (-a)) ⊤ = 1#1) : ∃ v : ℝ, a = (v : EReal) := by
  induction a using EReal.rec with
  | bot => simp [Ideal.cmp] at h
  | coe v => exact ⟨v, rfl⟩
  | top => simp [Ideal.cmp] at h

/-- One argument's conjunct: if "all entries have |·| < +∞" came out 1, every entry is real. -/
theorem real_of_all {s : Shape} {axes : List (Fin s.rank)} (x : FVec Ideal s .f32) (hb : S_.BroadcastsInDim s (![] : Fin 0 → Fin s.rank))
    (hr : s.ReducesTo axes S_) (h0 : 0 < S_.numel)
    (e : Host.reduce IntOp.andi (cmpf .olt (Host.absf x) (broadcastInDim s ![] hb (constant S_ .f32 0x7F800000#32)))
      (constantI S_ 1 1#1) hr h0 ix0 = 1#1) (i : s.Idx) : ∃ v : ℝ, x i = (v : EReal) := by
  have hi := Host.reduce_andi_all _ _ hr h0 ix0 e i
  apply real_of_abs_lt_top
  rw [← ofBits_inf]
  exact hi

/-- The precondition says exactly that all six arrays hold real numbers. -/
theorem real_of_pre [Cert.Pre_finite_inputs.Facts] (x : FVec Ideal Cert.Pre_finite_inputs.S10000x128 .f32) (adj : FVec Ideal Cert.Pre_finite_inputs.S10000x10000 .f32) (W1 : FVec Ideal Cert.Pre_finite_inputs.S128x64 .f32) (b1 : FVec Ideal Cert.Pre_finite_inputs.S64 .f32) (W2 : FVec Ideal Cert.Pre_finite_inputs.S64x64 .f32) (b2 : FVec Ideal Cert.Pre_finite_inputs.S64 .f32)
    (h : Cert.Pre_finite_inputs.fn (F := Ideal) x adj W1 b1 W2 b2 = fun _ => 1#1) :
    (∀ i, ∃ v : ℝ, x i = (v : EReal)) ∧ (∀ i, ∃ v : ℝ, adj i = (v : EReal)) ∧ (∀ i, ∃ v : ℝ, W1 i = (v : EReal)) ∧ (∀ i, ∃ v : ℝ, b1 i = (v : EReal)) ∧ (∀ i, ∃ v : ℝ, W2 i = (v : EReal)) ∧ (∀ i, ∃ v : ℝ, b2 i = (v : EReal)) := by
  have h0 := congrFun h ix0
  dsimp only [Cert.Pre_finite_inputs.fn, Cert.Pre_finite_inputs.fn_part1] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e1, e2⟩ := IntOp.andi_eq_one.1 h0
  exact ⟨real_of_all x _ _ _ e1, real_of_all adj _ _ _ e2, real_of_all W1 _ _ _ e3, real_of_all b1 _ _ _ e4,
    real_of_all W2 _ _ _ e5, real_of_all b2 _ _ _ e6⟩

end Cert.PreReal
end
-- ==== Proof.lean ====
/-
  A two-layer graph convolution with a row-wise log-softmax: a two-pass Pallas kernel against its jnp reference.

  Both programs compute  scores = adj · (max (adj · (x · W1) + b1, 0) · W2) + b2  with the same sums in the same
  arrangement, entry by entry: the kernel forms x · W1 once, then per 400-row panel of adj the rows of
  max (panel · (x · W1) + b1, 0) · W2 (first pass, kept in a scratch buffer), then per panel the rows of the scores and
  their log-softmax (second pass). They differ only in how the log-softmax is arranged: with m a row's maximum and
  L = log Σ_j exp (scores_j − m), the reference returns (scores_j − m) − L and the kernel scores_j − (L + m). On the
  extended reals these agree because every entry is a real number: the inputs are finite by the precondition, sums and
  products and maxima of reals are reals, the sum of exponentials is a positive real, and its logarithm is a real.

  The frames of the two kernel programs are one text, written once over any float instance: the body's run in each of
  its three cases (position 0; the rest of the first pass; the second pass), the contents of the two scratch buffers
  carried from position to position, and the library's frame run. The idealization rewrote nothing, so preserves is
  trivial. The reference's frame and value come from its run read back one operation at a time.
-/
import proofs.«168079_g83657372991743_cont_sun_c4_273_4_alg».proof.Defs
import proofs.«168079_g83657372991743_cont_sun_c4_273_4_alg».proof.Proof.Gen.Kernel
import proofs.«168079_g83657372991743_cont_sun_c4_273_4_alg».proof.Proof.Gen.KernelIdeal
import proofs.«168079_g83657372991743_cont_sun_c4_273_4_alg».proof.Proof.Gen.ReferenceIdeal
import proofs.«168079_g83657372991743_cont_sun_c4_273_4_alg».proof.Proof.Gen.Pre_finite_inputs
import proofs.«168079_g83657372991743_cont_sun_c4_273_4_alg».proof.Proof.TwoPassBits.Body
import proofs.«168079_g83657372991743_cont_sun_c4_273_4_alg».proof.Proof.TwoPassIdeal.Body
import proofs.«168079_g83657372991743_cont_sun_c4_273_4_alg».proof.Proof.TwoPassIdeal.KernelValue
import proofs.«168079_g83657372991743_cont_sun_c4_273_4_alg».proof.Proof.ReferenceValue
import proofs.«168079_g83657372991743_cont_sun_c4_273_4_alg».proof.Proof.GcnFinite
import proofs.«168079_g83657372991743_cont_sun_c4_273_4_alg».proof.Proof.PreReal
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.TwoPass.frame (F := Bits) m ρ

/-- So does the idealized kernel. -/
theorem frame_kernelIdeal : Cert.frame_KernelIdeal := fun m ρ _ => Cert.KernelIdeal.TwoPass.frame (F := Ideal) m ρ

/-- So does the reference. -/
theorem frame_reference : Cert.frame_ReferenceIdeal := Cert.ReferenceIdeal.RefValue.frame_ref

/-- The idealization rewrote no operation. -/
theorem preserves : Cert.preserves_Kernel_KernelIdeal := trivial

/-- The kernel's result is the log-softmax in the direct arrangement, the reference's in the shifted arrangement, of
    the same scores of arguments that agree; the two arrangements agree on finite arguments. -/
theorem algebraic : Cert.algebraic_KernelIdeal_ReferenceIdeal := by
  intro m ρ m' ρ' hpre hagree
  refine ⟨_, Cert.KernelIdeal.TwoPass.run_outDirect_of m ρ (Cert.KernelIdeal.TwoPass.run_main (F := Ideal) m ρ), ?_⟩
  refine (θ_run (Cert.ReferenceIdeal.defs (F := Ideal)) _ _).mono (fun _ h c => ⟨(h c).1.trans ?_, (h c).2⟩)
    (Cert.ReferenceIdeal.RefValue.run_outShifted m' ρ')
  obtain ⟨hx, ha, hw1, hb1, hw2, hb2⟩ := Cert.PreReal.real_of_pre _ _ _ _ _ _ (hpre c)
  rw [(hagree c).1, (hagree c).2.1, (hagree c).2.2.1, (hagree c).2.2.2.1, (hagree c).2.2.2.2.1, (hagree c).2.2.2.2.2]
  exact (Cert.GcnSpec.outDirect_eq_outShifted _ _ _ _ _ _ hx ha hw1 hb1 hw2 hb2).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
